-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64x64x128 : Shape := ⟨4, ![32, 64, 64, 128]⟩
abbrev S_ : Shape := ⟨0, ![]⟩

class Facts : Prop where
  bcast_S_S32x64x64x128 : S_.BroadcastsInDim S32x64x64x128 (![] : Fin 0 → Fin S32x64x64x128.rank)
  reducesTo_S32x64x64x128_S_d0_1_2_3 : S32x64x64x128.ReducesTo [0, 1, 2, 3] S_
  h_S_ : 0 < S_.numel

variable [Facts]

def fn {F : FTy → Type} [FloatOps F] (main_arg0 : FVec F S32x64x64x128 .f32) (main_arg1 : IVec S32x64x64x128 32) : IVec S_ 1 :=
  let main_v0 : FVec F S32x64x64x128 .f32 := Host.absf main_arg0
  let main_cst : FVec F S_ .f32 := constant S_ .f32 0x7F800000#32
  let main_v1 : FVec F S32x64x64x128 .f32 := broadcastInDim S32x64x64x128 ![] bcast_S_S32x64x64x128 main_cst
  let main_v2 : IVec S32x64x64x128 1 := cmpf .olt main_v0 main_v1
  let main_c : IVec S_ 1 := constantI S_ 1 1#1
  let main_v3 : IVec S_ 1 := (fun x v => Host.reduce IntOp.andi x v reducesTo_S32x64x64x128_S_d0_1_2_3 h_S_) main_v2 main_c
  let main_c_0 : IVec S_ 32 := constantI S_ 32 0#32
  let main_v4 : IVec S32x64x64x128 32 := broadcastInDim S32x64x64x128 ![] bcast_S_S32x64x64x128 main_c_0
  let main_v5 : IVec S32x64x64x128 1 := cmpi .sge main_arg1 main_v4
  let main_c_1 : IVec S_ 1 := constantI S_ 1 1#1
  let main_v6 : IVec S_ 1 := (fun x v => Host.reduce IntOp.andi x v reducesTo_S32x64x64x128_S_d0_1_2_3 h_S_) main_v5 main_c_1
  let main_v7 : IVec S_ 1 := andi main_v3 main_v6
  let main_c_2 : IVec S_ 32 := constantI S_ 32 2097152#32
  let main_v8 : IVec S32x64x64x128 32 := broadcastInDim S32x64x64x128 ![] bcast_S_S32x64x64x128 main_c_2
  let main_v9 : IVec S32x64x64x128 1 := cmpi .slt main_arg1 main_v8
  let main_c_3 : IVec S_ 1 := constantI S_ 1 1#1
  let main_v10 : IVec S_ 1 := (fun x v => Host.reduce IntOp.andi x v reducesTo_S32x64x64x128_S_d0_1_2_3 h_S_) main_v9 main_c_3
  let main_v11 : IVec S_ 1 := andi main_v7 main_v10
  main_v11
-- ==== Kernel.lean ====
abbrev S32x64x64x128 : Shape := ⟨4, ![32, 64, 64, 128]⟩
abbrev S1x64x64x128 : Shape := ⟨4, ![1, 64, 64, 128]⟩
abbrev S_ : Shape := ⟨0, ![]⟩
abbrev S67108864 : Shape := ⟨1, ![67108864]⟩
abbrev S16777216 : Shape := ⟨1, ![16777216]⟩
abbrev S16777216x1 : Shape := ⟨2, ![16777216, 1]⟩
abbrev S32x128x128x128 : Shape := ⟨4, ![32, 128, 128, 128]⟩

abbrev nBuf : Space → Nat
  | .hbm => 17
  | .vmem => 4
  | .smem => 0
  | _ => 0

abbrev bufTy : (tb : Table) → Fin (tcTables nBuf tb) → BufTy
  | .hbm, ⟨0, _⟩ => ⟨S32x64x64x128, .f32⟩
  | .hbm, ⟨1, _⟩ => ⟨S32x64x64x128, .i32⟩
  | .hbm, ⟨2, _⟩ => ⟨S32x64x64x128, .i32⟩
  | .hbm, ⟨3, _⟩ => ⟨S_, .f32⟩
  | .hbm, ⟨4, _⟩ => ⟨S67108864, .f32⟩
  | .hbm, ⟨5, _⟩ => ⟨S16777216, .i32⟩
  | .hbm, ⟨6, _⟩ => ⟨S16777216, .f32⟩
  | .hbm, ⟨7, _⟩ => ⟨S_, .i32⟩
  | .hbm, ⟨8, _⟩ => ⟨S16777216, .i32⟩
  | .hbm, ⟨9, _⟩ => ⟨S16777216, .i1⟩
  | .hbm, ⟨10, _⟩ => ⟨S_, .i32⟩
  | .hbm, ⟨11, _⟩ => ⟨S16777216, .i32⟩
  | .hbm, ⟨12, _⟩ => ⟨S16777216, .i32⟩
  | .hbm, ⟨13, _⟩ => ⟨S16777216, .i32⟩
  | .hbm, ⟨14, _⟩ => ⟨S16777216x1, .i32⟩
  | .hbm, ⟨15, _⟩ => ⟨S67108864, .f32⟩
  | .hbm, ⟨16, _⟩ => ⟨S32x128x128x128, .f32⟩
  | .local _ .vmem, ⟨0, _⟩ => ⟨S1x64x64x128, .i32⟩
  | .local _ .vmem, ⟨1, _⟩ => ⟨S1x64x64x128, .i32⟩
  | .local _ .vmem, ⟨2, _⟩ => ⟨S1x64x64x128, .i32⟩
  | .local _ .vmem, ⟨3, _⟩ => ⟨S1x64x64x128, .i32⟩
  | _, _ => ⟨S32x64x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x64x64x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x64x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S1x64x64x128_S1x64x64x128_0_0_0_0 : ∀ a, (![0, 0, 0, 0] : Fin 4 → Nat) a + S1x64x64x128.size a ≤ S1x64x64x128.size a
  h_S1x64x64x128 : 0 < S1x64x64x128.numel
  iota_S1x64x64x128_d3_w32 : S1x64x64x128.Iotas .tc 32 [3]
  bcast_S_S67108864 : S_.BroadcastsInDim S67108864 (![] : Fin 0 → Fin S67108864.rank)
  shapeCasts_S32x64x64x128_S16777216 : S32x64x64x128.ShapeCasts S16777216
  bcast_S_S16777216 : S_.BroadcastsInDim S16777216 (![] : Fin 0 → Fin S16777216.rank)
  bcast_S16777216_S16777216x1_0 : S16777216.BroadcastsInDim S16777216x1 (![0] : Fin 1 → Fin S16777216x1.rank)
  shapeCasts_S67108864_S32x128x128x128 : S67108864.ShapeCasts S32x128x128x128
  scatter_S67108864_S16777216x1_S16777216_n_0_0_1_wf : ScatterDims.WF S67108864 S16777216x1 S16777216 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x64x128.size a ≤ S32x64x64x128.size a
  hwx0_0 : ∀ i : grid0.Coords, EltTy.bits .i32 = 32 ∨ (Rect.block (s := S32x64x64x128) S1x64x64x128.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x64x128.size a ≤ S32x64x64x128.size a
  hwx0_1 : ∀ i : grid0.Coords, EltTy.bits .i32 = 32 ∨ (Rect.block (s := S32x64x64x128) S1x64x64x128.size (cc0_transform_1 i) (hinb0_1 i)).WholeWords (EltTy.packing .i32)

variable [Facts₀]

def scatter_S67108864_S16777216x1_S16777216_n_0_0_1 : ScatterDims S67108864 S16777216x1 S16777216 where
  updateWindowDims := []
  insertedWindowDims := [0]
  scatterDimsToOperandDims := [0]
  indexVectorDim := 1
  wf := scatter_S67108864_S16777216x1_S16777216_n_0_0_1_wf

abbrev win0_0 : Pipeline.Window sig grid0 :=
  Pipeline.Window.ofSpec (Memref.whole main_arg1) S1x64x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x64x64x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x64x64x128 : Shape := ⟨4, ![32, 64, 64, 128]⟩
abbrev S_ : Shape := ⟨0, ![]⟩
abbrev S32 : Shape := ⟨1, ![32]⟩
abbrev S32x1x1x1 : Shape := ⟨4, ![32, 1, 1, 1]⟩
abbrev S128 : Shape := ⟨1, ![128]⟩
abbrev S32x128x128x128 : Shape := ⟨4, ![32, 128, 128, 128]⟩
abbrev S32x64x64x128x1 : Shape := ⟨5, ![32, 64, 64, 128, 1]⟩
abbrev S32x64x64x128x4 : Shape := ⟨5, ![32, 64, 64, 128, 4]⟩

abbrev nBuf : Space → Nat
  | .hbm => 101
  | .vmem => 0
  | .smem => 0
  | _ => 0

abbrev bufTy : (tb : Table) → Fin (tcTables nBuf tb) → BufTy
  | .hbm, ⟨0, _⟩ => ⟨S32x64x64x128, .f32⟩
  | .hbm, ⟨1, _⟩ => ⟨S32x64x64x128, .i32⟩
  | .hbm, ⟨2, _⟩ => ⟨S_, .i32⟩
  | .hbm, ⟨3, _⟩ => ⟨S_, .i32⟩
  | .hbm, ⟨4, _⟩ => ⟨S32x64x64x128, .i32⟩
  | .hbm, ⟨5, _⟩ => ⟨S32x64x64x128, .i32⟩
  | .hbm, ⟨6, _⟩ => ⟨S32x64x64x128, .i32⟩
  | .hbm, ⟨7, _⟩ => ⟨S_, .i32⟩
  | .hbm, ⟨8, _⟩ => ⟨S32x64x64x128, .i32⟩
  | .hbm, ⟨9, _⟩ => ⟨S32x64x64x128, .i1⟩
  | .hbm, ⟨10, _⟩ => ⟨S32x64x64x128, .i32⟩
  | .hbm, ⟨11, _⟩ => ⟨S32x64x64x128, .i32⟩
  | .hbm, ⟨12, _⟩ => ⟨S_, .i32⟩
  | .hbm, ⟨13, _⟩ => ⟨S32x64x64x128, .i32⟩
  | .hbm, ⟨14, _⟩ => ⟨S32x64x64x128, .i1⟩
  | .hbm, ⟨15, _⟩ => ⟨S32x64x64x128, .i1⟩
  | .hbm, ⟨16, _⟩ => ⟨S_, .i32⟩
  | .hbm, ⟨17, _⟩ => ⟨S32x64x64x128, .i32⟩
  | .hbm, ⟨18, _⟩ => ⟨S32x64x64x128, .i32⟩
  | .hbm, ⟨19, _⟩ => ⟨S32x64x64x128, .i32⟩
  | .hbm, ⟨20, _⟩ => ⟨S_, .i32⟩
  | .hbm, ⟨21, _⟩ => ⟨S_, .i32⟩
  | .hbm, ⟨22, _⟩ => ⟨S32x64x64x128, .i32⟩
  | .hbm, ⟨23, _⟩ => ⟨S32x64x64x128, .i32⟩
  | .hbm, ⟨24, _⟩ => ⟨S32x64x64x128, .i32⟩
  | .hbm, ⟨25, _⟩ => ⟨S_, .i32⟩
  | .hbm, ⟨26, _⟩ => ⟨S32x64x64x128, .i32⟩
  | .hbm, ⟨27, _⟩ => ⟨S32x64x64x128, .i1⟩
  | .hbm, ⟨28, _⟩ => ⟨S32x64x64x128, .i32⟩
  | .hbm, ⟨29, _⟩ => ⟨S32x64x64x128, .i32⟩
  | .hbm, ⟨30, _⟩ => ⟨S_, .i32⟩
  | .hbm, ⟨31, _⟩ => ⟨S32x64x64x128, .i32⟩
  | .hbm, ⟨32, _⟩ => ⟨S32x64x64x128, .i1⟩
  | .hbm, ⟨33, _⟩ => ⟨S32x64x64x128, .i1⟩
  | .hbm, ⟨34, _⟩ => ⟨S_, .i32⟩
  | .hbm, ⟨35, _⟩ => ⟨S32x64x64x128, .i32⟩
  | .hbm, ⟨36, _⟩ => ⟨S32x64x64x128, .i32⟩
  | .hbm, ⟨37, _⟩ => ⟨S32x64x64x128, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i1⟩
  | .hbm, ⟨42, _⟩ => ⟨S_, .i32⟩
  | .hbm, ⟨43, _⟩ => ⟨S_, .i32⟩
  | .hbm, ⟨44, _⟩ => ⟨S32x64x64x128, .i32⟩
  | .hbm, ⟨45, _⟩ => ⟨S32x64x64x128, .i32⟩
  | .hbm, ⟨46, _⟩ => ⟨S_, .i32⟩
  | .hbm, ⟨47, _⟩ => ⟨S32x64x64x128, .i32⟩
  | .hbm, ⟨48, _⟩ => ⟨S32x64x64x128, .i1⟩
  | .hbm, ⟨49, _⟩ => ⟨S_, .i32⟩
  | .hbm, ⟨50, _⟩ => ⟨S32x64x64x128, .i32⟩
  | .hbm, ⟨51, _⟩ => ⟨S32x64x64x128, .i1⟩
  | .hbm, ⟨52, _⟩ => ⟨S_, .i32⟩
  | .hbm, ⟨53, _⟩ => ⟨S_, .i1⟩
  | .hbm, ⟨54, _⟩ => ⟨S32x64x64x128, .i1⟩
  | .hbm, ⟨55, _⟩ => ⟨S32x64x64x128, .i1⟩
  | .hbm, ⟨56, _⟩ => ⟨S32x64x64x128, .i1⟩
  | .hbm, ⟨57, _⟩ => ⟨S32x64x64x128, .i32⟩
  | .hbm, ⟨58, _⟩ => ⟨S32x64x64x128, .i32⟩
  | .hbm, ⟨59, _⟩ => ⟨S32x64x64x128, .i32⟩
  | .hbm, ⟨60, _⟩ => ⟨S32, .i32⟩
  | .hbm, ⟨61, _⟩ => ⟨S32x1x1x1, .i32⟩
  | .hbm, ⟨62, _⟩ => ⟨S128, .i32⟩
  | .hbm, ⟨63, _⟩ => ⟨S_, .f32⟩
  | .hbm, ⟨64, _⟩ => ⟨S32x128x128x128, .f32⟩
  | .hbm, ⟨65, _⟩ => ⟨S_, .i32⟩
  | .hbm, ⟨66, _⟩ => ⟨S32x1x1x1, .i32⟩
  | .hbm, ⟨67, _⟩ => ⟨S32x1x1x1, .i1⟩
  | .hbm, ⟨68, _⟩ => ⟨S_, .i32⟩
  | .hbm, ⟨69, _⟩ => ⟨S32x1x1x1, .i32⟩
  | .hbm, ⟨70, _⟩ => ⟨S32x1x1x1, .i32⟩
  | .hbm, ⟨71, _⟩ => ⟨S32x1x1x1, .i32⟩
  | .hbm, ⟨72, _⟩ => ⟨S_, .i32⟩
  | .hbm, ⟨73, _⟩ => ⟨S32x64x64x128, .i32⟩
  | .hbm, ⟨74, _⟩ => ⟨S32x64x64x128, .i1⟩
  | .hbm, ⟨75, _⟩ => ⟨S_, .i32⟩
  | .hbm, ⟨76, _⟩ => ⟨S32x64x64x128, .i32⟩
  | .hbm, ⟨77, _⟩ => ⟨S32x64x64x128, .i32⟩
  | .hbm, ⟨78, _⟩ => ⟨S32x64x64x128, .i32⟩
  | .hbm, ⟨79, _⟩ => ⟨S_, .i32⟩
  | .hbm, ⟨80, _⟩ => ⟨S32x64x64x128, .i32⟩
  | .hbm, ⟨81, _⟩ => ⟨S32x64x64x128, .i1⟩
  | .hbm, ⟨82, _⟩ => ⟨S_, .i32⟩
  | .hbm, ⟨83, _⟩ => ⟨S32x64x64x128, .i32⟩
  | .hbm, ⟨84, _⟩ => ⟨S32x64x64x128, .i32⟩
  | .hbm, ⟨85, _⟩ => ⟨S32x64x64x128, .i32⟩
  | .hbm, ⟨86, _⟩ => ⟨S_, .i32⟩
  | .hbm, ⟨87, _⟩ => ⟨S128, .i32⟩
  | .hbm, ⟨88, _⟩ => ⟨S128, .i1⟩
  | .hbm, ⟨89, _⟩ => ⟨S_, .i32⟩
  | .hbm, ⟨90, _⟩ => ⟨S128, .i32⟩
  | .hbm, ⟨91, _⟩ => ⟨S128, .i32⟩
  | .hbm, ⟨92, _⟩ => ⟨S128, .i32⟩
  | .hbm, ⟨93, _⟩ => ⟨S32x64x64x128, .i32⟩
  | .hbm, ⟨94, _⟩ => ⟨S32x64x64x128, .i32⟩
  | .hbm, ⟨95, _⟩ => ⟨S32x64x64x128x1, .i32⟩
  | .hbm, ⟨96, _⟩ => ⟨S32x64x64x128x1, .i32⟩
  | .hbm, ⟨97, _⟩ => ⟨S32x64x64x128x1, .i32⟩
  | .hbm, ⟨98, _⟩ => ⟨S32x64x64x128x1, .i32⟩
  | .hbm, ⟨99, _⟩ => ⟨S32x64x64x128x4, .i32⟩
  | .hbm, ⟨100, _⟩ => ⟨S32x128x128x128, .f32⟩
  | _, _ => ⟨S32x64x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_v7 : Ref sig .tc := ⟨.hbm, 10, rfl⟩
abbrev main_call0_v8 : Ref sig .tc := ⟨.hbm, 11, rfl⟩
abbrev main_call0_c : Ref sig .tc := ⟨.hbm, 12, rfl⟩
abbrev main_call0_v9 : Ref sig .tc := ⟨.hbm, 13, rfl⟩
abbrev main_call0_v10 : Ref sig .tc := ⟨.hbm, 14, rfl⟩
abbrev main_call0_v11 : Ref sig .tc := ⟨.hbm, 15, rfl⟩
abbrev main_call0_c_0 : Ref sig .tc := ⟨.hbm, 16, rfl⟩
abbrev main_call0_v12 : Ref sig .tc := ⟨.hbm, 17, rfl⟩
abbrev main_call0_v13 : Ref sig .tc := ⟨.hbm, 18, rfl⟩
abbrev main_v0 : Ref sig .tc := ⟨.hbm, 19, rfl⟩
abbrev main_c_0 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_v6 : Ref sig .tc := ⟨.hbm, 27, rfl⟩
abbrev main_call1_v7 : Ref sig .tc := ⟨.hbm, 28, rfl⟩
abbrev main_call1_v8 : Ref sig .tc := ⟨.hbm, 29, rfl⟩
abbrev main_call1_c : Ref sig .tc := ⟨.hbm, 30, rfl⟩
abbrev main_call1_v9 : Ref sig .tc := ⟨.hbm, 31, rfl⟩
abbrev main_call1_v10 : Ref sig .tc := ⟨.hbm, 32, rfl⟩
abbrev main_call1_v11 : Ref sig .tc := ⟨.hbm, 33, rfl⟩
abbrev main_call1_c_0 : Ref sig .tc := ⟨.hbm, 34, rfl⟩
abbrev main_call1_v12 : Ref sig .tc := ⟨.hbm, 35, rfl⟩
abbrev main_call1_v13 : Ref sig .tc := ⟨.hbm, 36, rfl⟩
abbrev main_v1 : Ref sig .tc := ⟨.hbm, 37, rfl⟩
abbrev main_c_1 : Ref sig .tc := ⟨.hbm, 38, rfl⟩
abbrev main_call2_v0 : Ref sig .tc := ⟨.hbm, 39, rfl⟩
abbrev main_call2_c : Ref sig .tc := ⟨.hbm, 40, rfl⟩
abbrev main_call2_v1 : Ref sig .tc := ⟨.hbm, 41, rfl⟩
abbrev main_call2_c_0 : Ref sig .tc := ⟨.hbm, 42, rfl⟩
abbrev main_call2_v2 : Ref sig .tc := ⟨.hbm, 43, rfl⟩
abbrev main_call2_v3 : Ref sig .tc := ⟨.hbm, 44, rfl⟩
abbrev main_call2_v4 : Ref sig .tc := ⟨.hbm, 45, rfl⟩
abbrev main_call2_c_1 : Ref sig .tc := ⟨.hbm, 46, rfl⟩
abbrev main_call2_v5 : Ref sig .tc := ⟨.hbm, 47, rfl⟩
abbrev main_call2_v6 : Ref sig .tc := ⟨.hbm, 48, rfl⟩
abbrev main_call2_c_2 : Ref sig .tc := ⟨.hbm, 49, rfl⟩
abbrev main_call2_v7 : Ref sig .tc := ⟨.hbm, 50, rfl⟩
abbrev main_call2_v8 : Ref sig .tc := ⟨.hbm, 51, rfl⟩
abbrev main_call2_c_3 : Ref sig .tc := ⟨.hbm, 52, rfl⟩
abbrev main_call2_v9 : Ref sig .tc := ⟨.hbm, 53, rfl⟩
abbrev main_call2_v10 : Ref sig .tc := ⟨.hbm, 54, rfl⟩
abbrev main_call2_v11 : Ref sig .tc := ⟨.hbm, 55, rfl⟩
abbrev main_call2_v12 : Ref sig .tc := ⟨.hbm, 56, rfl⟩
abbrev main_call2_v13 : Ref sig .tc := ⟨.hbm, 57, rfl⟩
abbrev main_call2_v14 : Ref sig .tc := ⟨.hbm, 58, rfl⟩
abbrev main_v2 : Ref sig .tc := ⟨.hbm, 59, rfl⟩
abbrev main_v3 : Ref sig .tc := ⟨.hbm, 60, rfl⟩
abbrev main_v4 : Ref sig .tc := ⟨.hbm, 61, rfl⟩
abbrev main_v5 : Ref sig .tc := ⟨.hbm, 62, rfl⟩
abbrev main_cst : Ref sig .tc := ⟨.hbm, 63, rfl⟩
abbrev main_v6 : Ref sig .tc := ⟨.hbm, 64, rfl⟩
abbrev main_c_2 : Ref sig .tc := ⟨.hbm, 65, rfl⟩
abbrev main_v7 : Ref sig .tc := ⟨.hbm, 66, rfl⟩
abbrev main_v8 : Ref sig .tc := ⟨.hbm, 67, rfl⟩
abbrev main_c_3 : Ref sig .tc := ⟨.hbm, 68, rfl⟩
abbrev main_v9 : Ref sig .tc := ⟨.hbm, 69, rfl⟩
abbrev main_v10 : Ref sig .tc := ⟨.hbm, 70, rfl⟩
abbrev main_v11 : Ref sig .tc := ⟨.hbm, 71, rfl⟩
abbrev main_c_4 : Ref sig .tc := ⟨.hbm, 72, rfl⟩
abbrev main_v12 : Ref sig .tc := ⟨.hbm, 73, rfl⟩
abbrev main_v13 : Ref sig .tc := ⟨.hbm, 74, rfl⟩
abbrev main_c_5 : Ref sig .tc := ⟨.hbm, 75, rfl⟩
abbrev main_v14 : Ref sig .tc := ⟨.hbm, 76, rfl⟩
abbrev main_v15 : Ref sig .tc := ⟨.hbm, 77, rfl⟩
abbrev main_v16 : Ref sig .tc := ⟨.hbm, 78, rfl⟩
abbrev main_c_6 : Ref sig .tc := ⟨.hbm, 79, rfl⟩
abbrev main_v17 : Ref sig .tc := ⟨.hbm, 80, rfl⟩
abbrev main_v18 : Ref sig .tc := ⟨.hbm, 81, rfl⟩
abbrev main_c_7 : Ref sig .tc := ⟨.hbm, 82, rfl⟩
abbrev main_v19 : Ref sig .tc := ⟨.hbm, 83, rfl⟩
abbrev main_v20 : Ref sig .tc := ⟨.hbm, 84, rfl⟩
abbrev main_v21 : Ref sig .tc := ⟨.hbm, 85, rfl⟩
abbrev main_c_8 : Ref sig .tc := ⟨.hbm, 86, rfl⟩
abbrev main_v22 : Ref sig .tc := ⟨.hbm, 87, rfl⟩
abbrev main_v23 : Ref sig .tc := ⟨.hbm, 88, rfl⟩
abbrev main_c_9 : Ref sig .tc := ⟨.hbm, 89, rfl⟩
abbrev main_v24 : Ref sig .tc := ⟨.hbm, 90, rfl⟩
abbrev main_v25 : Ref sig .tc := ⟨.hbm, 91, rfl⟩
abbrev main_v26 : Ref sig .tc := ⟨.hbm, 92, rfl⟩
abbrev main_v27 : Ref sig .tc := ⟨.hbm, 93, rfl⟩
abbrev main_v28 : Ref sig .tc := ⟨.hbm, 94, rfl⟩
abbrev main_v29 : Ref sig .tc := ⟨.hbm, 95, rfl⟩
abbrev main_v30 : Ref sig .tc := ⟨.hbm, 96, rfl⟩
abbrev main_v31 : Ref sig .tc := ⟨.hbm, 97, rfl⟩
abbrev main_v32 : Ref sig .tc := ⟨.hbm, 98, rfl⟩
abbrev main_v33 : Ref sig .tc := ⟨.hbm, 99, rfl⟩
abbrev main_v34 : Ref sig .tc := ⟨.hbm, 100, rfl⟩

abbrev nD : Nat := 1
abbrev τ : Topo := Topo.v7x

variable {F : FTy → Type} [FloatOps F]

class Facts₀ : Prop where
  bcast_S_S32x64x64x128 : S_.BroadcastsInDim S32x64x64x128 (![] : Fin 0 → Fin S32x64x64x128.rank)
  bcast_S32_S32x1x1x1_0 : S32.BroadcastsInDim S32x1x1x1 (![0] : Fin 1 → Fin S32x1x1x1.rank)
  bcast_S_S32x128x128x128 : S_.BroadcastsInDim S32x128x128x128 (![] : Fin 0 → Fin S32x128x128x128.rank)
  bcast_S_S32x1x1x1 : S_.BroadcastsInDim S32x1x1x1 (![] : Fin 0 → Fin S32x1x1x1.rank)
  bcast_S_S128 : S_.BroadcastsInDim S128 (![] : Fin 0 → Fin S128.rank)
  bcast_S32x1x1x1_S32x64x64x128_0_1_2_3 : S32x1x1x1.BroadcastsInDim S32x64x64x128 (![0, 1, 2, 3] : Fin 4 → Fin S32x64x64x128.rank)
  bcast_S128_S32x64x64x128_3 : S128.BroadcastsInDim S32x64x64x128 (![3] : Fin 1 → Fin S32x64x64x128.rank)
  bcast_S32x64x64x128_S32x64x64x128x1_0_1_2_3 : S32x64x64x128.BroadcastsInDim S32x64x64x128x1 (![0, 1, 2, 3] : Fin 4 → Fin S32x64x64x128x1.rank)
  concatenates_S32x64x64x128x1_S32x64x64x128x1_S32x64x64x128x1_S32x64x64x128x1_S32x64x64x128x4_d4 : Shape.Concatenates [S32x64x64x128x1, S32x64x64x128x1, S32x64x64x128x1, S32x64x64x128x1] S32x64x64x128x4 4
  scatter_S32x128x128x128_S32x64x64x128x4_S32x64x64x128_n_0123_0123_4_wf : ScatterDims.WF S32x128x128x128 S32x64x64x128x4 S32x64x64x128 [] [0, 1, 2, 3] [0, 1, 2, 3] 4

variable [Facts₀]

def scatter_S32x128x128x128_S32x64x64x128x4_S32x64x64x128_n_0123_0123_4 : ScatterDims S32x128x128x128 S32x64x64x128x4 S32x64x64x128 where
  updateWindowDims := []
  insertedWindowDims := [0, 1, 2, 3]
  scatterDimsToOperandDims := [0, 1, 2, 3]
  indexVectorDim := 4
  wf := scatter_S32x128x128x128_S32x64x64x128x4_S32x64x64x128_n_0123_0123_4_wf

class Facts : Prop extends Facts₀ where

variable [Facts]
-- ==== Proof.Terms.lean ====
/-
  The two programs' results as pure terms of the argument arrays.

  The kernel's pallas_call turns every entry m of the mask at position (b, h, w, c) into the flat target
  b·2097152 + (m with its seven low bits cleared) + c when 0 ≤ m < 2097152, and into −1 otherwise; the host
  lines after it wrap a negative target by +67108864 and add the updates, flattened, into a zero vector of
  67108864 entries at those targets, which is then read as a [32, 128, 128, 128] array.
  The reference splits m into y = ⌊m / 16384⌋ and x = ⌊m / 128⌋ mod 128 (both as floor division and the
  sign-following remainder jnp spells out), wraps a negative coordinate by its extent, and adds the updates
  into a zero [32, 128, 128, 128] array at (b, y, x, c).
-/
import proofs.«429750_j88510686035968_3_alg».proof.Proof.Gen.KernelIdeal
import proofs.«429750_j88510686035968_3_alg».proof.Proof.Gen.ReferenceIdeal
import Idealize.ShloMosaic.Lib.ValueIdx

noncomputable section

open Idealize.ShloMosaic

/-! ## The kernel's program -/

namespace Cert.KernelIdeal.Hand

open Cert.KernelIdeal Cert.KernelIdeal.Gen

/-- What the pallas_call leaves in its output array, entry by entry, as a function of the whole mask. -/
def regionOut (mask : IVec S32x64x64x128 32) : IVec S32x64x64x128 32 := fun j =>
  Scalar.select (IntOp.andi (IntOp.cmpi .sge (mask j) 0#32) (IntOp.cmpi .slt (mask j) 2097152#32))
    (IntOp.addi (IntOp.addi (IntOp.andi (mask j) 4294967168#32) (BitVec.ofNat 32 (j 3).val))
      (IntOp.muli (BitVec.ofNat 32 (j 0).val) 2097152#32))
    4294967295#32

/-- The flat targets the host scatter reads: the kernel's output flattened, a negative entry wrapped by the
    length of the flat result, as a one-column index array. -/
def flatIdx (A : IVec S32x64x64x128 32) : IVec S16777216x1 32 :=
  let r : IVec S16777216 32 := shapeCast S16777216 A shapeCasts_S32x64x64x128_S16777216
  broadcastInDim S16777216x1 ![0] bcast_S16777216_S16777216x1_0
    (select (cmpi .slt r (broadcastInDim S16777216 ![] bcast_S_S16777216 (constantI S_ 32 0#32)))
      (addi r (broadcastInDim S16777216 ![] bcast_S_S16777216 (constantI S_ 32 67108864#32))) r)

variable {F : FTy → Type} [FloatOps F]

/-- The host lines after the pallas_call: the updates, flattened, added into zeros at the flat targets, and the
    flat result read as [32, 128, 128, 128]. -/
def tailResult (A : IVec S32x64x64x128 32) (upd : FVec F S32x64x64x128 .f32) : FVec F S32x128x128x128 .f32 :=
  shapeCast S32x128x128x128
    (Host.scatterAdd scatter_S67108864_S16777216x1_S16777216_n_0_0_1
      (broadcastInDim S67108864 ![] bcast_S_S67108864 (constant S_ .f32 0x00000000#32))
      (flatIdx A)
      (shapeCast S16777216 upd shapeCasts_S32x64x64x128_S16777216))
    shapeCasts_S67108864_S32x128x128x128

end Cert.KernelIdeal.Hand

/-! ## The reference -/

namespace Cert.ReferenceIdeal.Hand

open Cert.ReferenceIdeal Cert.ReferenceIdeal.Gen

/-- One call of jnp's integer floor division by a scalar: the truncating quotient, less one where the signs
    differ and the remainder is not zero. -/
def floorDivide (x : IVec S32x64x64x128 32) (d : IVec S_ 32) : IVec S32x64x64x128 32 :=
  let v1 : IVec S32x64x64x128 32 := broadcastInDim S32x64x64x128 ![] bcast_S_S32x64x64x128 d
  let v2 : IVec S32x64x64x128 32 := Host.divsi x v1
  let v3 : IVec S32x64x64x128 32 := signi x
  let v4 : IVec S_ 32 := signi d
  let v5 : IVec S32x64x64x128 32 := broadcastInDim S32x64x64x128 ![] bcast_S_S32x64x64x128 v4
  let v6 : IVec S32x64x64x128 1 := cmpi .ne v3 v5
  let v7 : IVec S32x64x64x128 32 := broadcastInDim S32x64x64x128 ![] bcast_S_S32x64x64x128 d
  let v8 : IVec S32x64x64x128 32 := Host.remsi x v7
  let v9 : IVec S32x64x64x128 32 := broadcastInDim S32x64x64x128 ![] bcast_S_S32x64x64x128 (constantI S_ 32 0#32)
  let v10 : IVec S32x64x64x128 1 := cmpi .ne v8 v9
  let v11 : IVec S32x64x64x128 1 := andi v6 v10
  let v12 : IVec S32x64x64x128 32 := broadcastInDim S32x64x64x128 ![] bcast_S_S32x64x64x128 (constantI S_ 32 1#32)
  let v13 : IVec S32x64x64x128 32 := subi v2 v12
  select v11 v13 v2

/-- One call of jnp's integer remainder by a scalar: the truncating remainder, plus the divisor where its
    sign differs from the divisor's and it is not zero (a zero divisor is replaced by one). -/
def remainder (x : IVec S32x64x64x128 32) (d : IVec S_ 32) : IVec S32x64x64x128 32 :=
  let v1 : IVec S_ 1 := cmpi .eq d (constantI S_ 32 0#32)
  let w : IVec S_ 32 := select v1 (constantI S_ 32 1#32) d
  let v3 : IVec S32x64x64x128 32 := broadcastInDim S32x64x64x128 ![] bcast_S_S32x64x64x128 w
  let v4 : IVec S32x64x64x128 32 := Host.remsi x v3
  let v5 : IVec S32x64x64x128 32 := broadcastInDim S32x64x64x128 ![] bcast_S_S32x64x64x128 (constantI S_ 32 0#32)
  let v6 : IVec S32x64x64x128 1 := cmpi .ne v4 v5
  let v7 : IVec S32x64x64x128 32 := broadcastInDim S32x64x64x128 ![] bcast_S_S32x64x64x128 (constantI S_ 32 0#32)
  let v8 : IVec S32x64x64x128 1 := cmpi .slt v4 v7
  let v9 : IVec S_ 1 := cmpi .slt w (constantI S_ 32 0#32)
  let v10 : IVec S32x64x64x128 1 := broadcastInDim S32x64x64x128 ![] bcast_S_S32x64x64x128 v9
  let v11 : IVec S32x64x64x128 1 := cmpi .ne v8 v10
  let v12 : IVec S32x64x64x128 1 := andi v11 v6
  let v13 : IVec S32x64x64x128 32 := broadcastInDim S32x64x64x128 ![] bcast_S_S32x64x64x128 w
  let v14 : IVec S32x64x64x128 32 := addi v4 v13
  select v12 v14 v4

/-- A coordinate array with its negative entries wrapped by the extent `n` (numpy's negative indexing). -/
def wrapNeg (x : IVec S32x64x64x128 32) (n : BitVec 32) : IVec S32x64x64x128 32 :=
  select (cmpi .slt x (broadcastInDim S32x64x64x128 ![] bcast_S_S32x64x64x128 (constantI S_ 32 0#32)))
    (addi x (broadcastInDim S32x64x64x128 ![] bcast_S_S32x64x64x128 (constantI S_ 32 n))) x

/-- The row coordinate ⌊m / 16384⌋, wrapped. -/
def yIdx (mask : IVec S32x64x64x128 32) : IVec S32x64x64x128 32 :=
  wrapNeg (floorDivide mask (constantI S_ 32 16384#32)) 128#32

/-- The column coordinate ⌊m / 128⌋ mod 128, wrapped. -/
def xIdx (mask : IVec S32x64x64x128 32) : IVec S32x64x64x128 32 :=
  wrapNeg (remainder (floorDivide mask (constantI S_ 32 128#32)) (constantI S_ 32 128#32)) 128#32

/-- The batch coordinate: the position on axis 0, wrapped, spread over the array. -/
def bIdx : IVec S32x64x64x128 32 :=
  let v4 : IVec S32x1x1x1 32 := broadcastInDim S32x1x1x1 ![0] bcast_S32_S32x1x1x1_0 (iotaInDim S32 32 0)
  let v8 : IVec S32x1x1x1 1 := cmpi .slt v4 (broadcastInDim S32x1x1x1 ![] bcast_S_S32x1x1x1 (constantI S_ 32 0#32))
  let v10 : IVec S32x1x1x1 32 := addi v4 (broadcastInDim S32x1x1x1 ![] bcast_S_S32x1x1x1 (constantI S_ 32 32#32))
  broadcastInDim S32x64x64x128 ![0, 1, 2, 3] bcast_S32x1x1x1_S32x64x64x128_0_1_2_3 (select v8 v10 v4)

/-- The channel coordinate: the position on axis 3, wrapped, spread over the array. -/
def fIdx : IVec S32x64x64x128 32 :=
  let v5 : IVec S128 32 := iotaInDim S128 32 0
  let v23 : IVec S128 1 := cmpi .slt v5 (broadcastInDim S128 ![] bcast_S_S128 (constantI S_ 32 0#32))
  let v25 : IVec S128 32 := addi v5 (broadcastInDim S128 ![] bcast_S_S128 (constantI S_ 32 128#32))
  broadcastInDim S32x64x64x128 ![3] bcast_S128_S32x64x64x128_3 (select v23 v25 v5)

/-- A coordinate array as the one-wide last-axis slab the scatter's index array is concatenated from. -/
def col (x : IVec S32x64x64x128 32) : IVec S32x64x64x128x1 32 :=
  broadcastInDim S32x64x64x128x1 ![0, 1, 2, 3] bcast_S32x64x64x128_S32x64x64x128x1_0_1_2_3 x

/-- The scatter's index array: (b, y, x, c) along the last axis. -/
def refIdx (mask : IVec S32x64x64x128 32) : IVec S32x64x64x128x4 32 :=
  concatenate S32x64x64x128x4 4
    [⟨S32x64x64x128x1, col bIdx⟩, ⟨S32x64x64x128x1, col (yIdx mask)⟩, ⟨S32x64x64x128x1, col (xIdx mask)⟩, ⟨S32x64x64x128x1, col fIdx⟩]
    concatenates_S32x64x64x128x1_S32x64x64x128x1_S32x64x64x128x1_S32x64x64x128x1_S32x64x64x128x4_d4

variable {F : FTy → Type} [FloatOps F]

/-- The reference's result: the updates added into zeros at (b, y, x, c). -/
def refResult (mask : IVec S32x64x64x128 32) (upd : FVec F S32x64x64x128 .f32) : FVec F S32x128x128x128 .f32 :=
  Host.scatterAdd scatter_S32x128x128x128_S32x64x64x128x4_S32x64x64x128_n_0123_0123_4
    (broadcastInDim S32x128x128x128 ![] bcast_S_S32x128x128x128 (constant S_ .f32 0x00000000#32))
    (refIdx mask) upd

end Cert.ReferenceIdeal.Hand

end
-- ==== Proof.KernelRun.lean ====
/-
  The kernel program's run at any float family: every weakly fair execution of its @main ends with the result
  array at the host tail's term of the pallas_call's output, that output being the closed whole-array function
  of the mask, and the two argument arrays unchanged.
-/
import proofs.«429750_j88510686035968_3_alg».proof.Proof.Terms
import proofs.«429750_j88510686035968_3_alg».proof.Proof.FrameKernelIdeal
import Idealize.ShloMosaic.Lib.Pipeline.Value
import Idealize.ShloMosaic.Lib.StableHlo.Run

noncomputable section

namespace Cert.KernelIdeal.Hand

open Cert.KernelIdeal Cert.KernelIdeal.Gen Cert.KernelIdeal.GenP Idealize.ShloMosaic Idealize.ShloMosaic.TcCoe Idealize.SL.Sem

variable {F : FTy → Type} [FloatOps F]

/-! ## The body's stored value, entry by entry -/

/-- The body's one load and one store go through the whole block: their offsets are zero on every axis. -/
theorem zeroOffsets : (![0, 0, 0, 0] : Fin 4 → Nat) = fun _ => 0 := funext fun a => by fin_cases a <;> rfl

/-- What the body stores at position `y` of its block, at grid coordinate `i`, from the loaded mask block `x0`:
    the entry with its seven low bits cleared, plus the channel position, plus the grid coordinate times 2097152,
    when the entry lies in [0, 2097152); −1 otherwise. -/
theorem pay_apply (i : grid0.Coords) (x0 : Vec F S1x64x64x128 .i32) (y : S1x64x64x128.Idx) :
    k0_pay1 i x0 y = Scalar.select (IntOp.andi (IntOp.cmpi .sge (x0 y) 0#32) (IntOp.cmpi .slt (x0 y) 2097152#32))
      (IntOp.addi (IntOp.addi (IntOp.andi (x0 y) 4294967168#32) (BitVec.ofNat 32 (y 3).val))
        (IntOp.muli (BitVec.ofNat 32 (i 0).val) 2097152#32)) 4294967295#32 := by
  unfold k0_pay1
  show Scalar.select (IntOp.andi (IntOp.cmpi .sge (x0 y) 0#32) (IntOp.cmpi .slt (x0 y) 2097152#32))
      (IntOp.addi (IntOp.addi (IntOp.andi (x0 y) 4294967168#32) (iota .tc S1x64x64x128 32 [3] iota_S1x64x64x128_d3_w32 y))
        (Scalar.muli (BitVec.ofNat 32 (i 0).val) 2097152#32)) 4294967295#32 = _
  rw [iota_single_apply]
  rfl

/-- The stored value at `y` is the whole-array function `regionOut` of the mask at any array position `k` that
    holds the loaded entry, has the grid coordinate on axis 0 and `y`'s channel on axis 3. -/
theorem pay_eq_regionOut (mask : IVec S32x64x64x128 32) (i : grid0.Coords) (x0 : Vec F S1x64x64x128 .i32)
    (y : S1x64x64x128.Idx) (k : S32x64x64x128.Idx)
    (hx : x0 y = mask k) (h0 : (k 0).val = (i 0).val) (h3 : (k 3).val = (y 3).val) :
    k0_pay1 i x0 y = regionOut mask k := by
  rw [pay_apply]
  unfold regionOut
  show _ = Scalar.select (IntOp.andi (IntOp.cmpi .sge (mask k) 0#32) (IntOp.cmpi .slt (mask k) 2097152#32))
      (IntOp.addi (IntOp.addi (IntOp.andi (mask k) 4294967168#32) (BitVec.ofNat 32 (k 3).val))
        (IntOp.muli (BitVec.ofNat 32 (k 0).val) 2097152#32)) 4294967295#32
  rw [hx, h0, h3]

/-! ## From blocks to the array -/

/-- The two windows' block indices over the grid: at point `t` both are (t, 0, 0, 0), and the grid coordinate is `t`. -/
theorem idx_facts : ∀ t : Fin cfg0.N, win0_0.index t (0 : Fin 4) = t.val ∧ win0_0.index t (1 : Fin 4) = 0
    ∧ win0_0.index t (2 : Fin 4) = 0 ∧ win0_0.index t (3 : Fin 4) = 0
    ∧ win0_1.index t (0 : Fin 4) = t.val ∧ win0_1.index t (1 : Fin 4) = 0
    ∧ win0_1.index t (2 : Fin 4) = 0 ∧ win0_1.index t (3 : Fin 4) = 0
    ∧ (grid0.coords t 0).val = t.val :=
  (by decide +kernel : ∀ t : Fin grid0.N, _)

section Blocks

variable (m : (ℓ : Loc nD τ sig) → Buf (Elt F) ℓ)

/-- What point `t` writes back is block `t` of `regionOut` of the mask: position `j` of the block sits in the
    array at (t, j 1, j 2, j 3), where the input window's block holds the mask's entry at the same place. -/
theorem flushed_eq (c : Dev nD) (t : Fin cfg0.N) :
    (dats m 0 c).flushed 1 t = ((cfg0.win 1).blk t).view.read (Elt F) (regionOut (V m c main_arg1)) := by
  show (cfg0.win 1).cut (grid0.coords t) ((dats m 0 c).after 1 t) = _
  rw [after0_1]
  unfold out0_1
  rw [View.canon_unit_zero zeroOffsets]
  simp only [View.ld_unit_zero (S := S1x64x64x128) zeroOffsets]
  obtain ⟨e0, e1, e2, e3, f0, f1, f2, f3, g0⟩ := idx_facts t
  funext j
  show k0_pay1 (grid0.coords t) (iblk m c 0 t) ((win0 1).xinj (grid0.coords t) j)
    = regionOut (V m c main_arg1) (((cfg0.win 1).blk t).view.emb j)
  have hj0 : (j 0).val < 1 := (j 0).isLt
  refine pay_eq_regionOut (V m c main_arg1) (grid0.coords t) (iblk m c 0 t) ((win0 1).xinj (grid0.coords t) j)
    (((cfg0.win 1).blk t).view.emb j) ?_ ?_ ?_
  · show V m c main_arg1 (((cfg0.win 0).blk t).view.emb ((win0 1).xinj (grid0.coords t) j))
      = V m c main_arg1 (((cfg0.win 1).blk t).view.emb j)
    refine congrArg (V m c main_arg1) ?_
    funext a; apply Fin.ext
    match a with
    | ⟨0, _⟩ => show win0_0.index t (0 : Fin 4) * 1 + 1 * (j 0).val = win0_1.index t (0 : Fin 4) * 1 + 1 * (j 0).val; omega
    | ⟨1, _⟩ => show win0_0.index t (1 : Fin 4) * 64 + 1 * (j 1).val = win0_1.index t (1 : Fin 4) * 64 + 1 * (j 1).val; omega
    | ⟨2, _⟩ => show win0_0.index t (2 : Fin 4) * 64 + 1 * (j 2).val = win0_1.index t (2 : Fin 4) * 64 + 1 * (j 2).val; omega
    | ⟨3, _⟩ => show win0_0.index t (3 : Fin 4) * 128 + 1 * (j 3).val = win0_1.index t (3 : Fin 4) * 128 + 1 * (j 3).val; omega
  · show win0_1.index t (0 : Fin 4) * 1 + 1 * (j 0).val = (grid0.coords t 0).val
    omega
  · show win0_1.index t (3 : Fin 4) * 128 + 1 * (j 3).val = (j 3).val
    omega

/-- An array position is in point `t`'s output block iff each coordinate is in the block's range on its axis. -/
theorem mem_blk (t : Fin cfg0.N) (i : S32x64x64x128.Idx) :
    i ∈ ((cfg0.win 1).blk t).view.set ↔ ∀ a : Fin 4, win0_1.index t a * S1x64x64x128.size a ≤ (i a).val
      ∧ (i a).val < win0_1.index t a * S1x64x64x128.size a + S1x64x64x128.size a := by
  show i ∈ ((View.whole main_v0).slice (win0_1.rect t)).set ↔ _
  rw [View.set_slice_whole, Rect.mem_set_unit]
  exact Iff.rfl

/-- Every array position is in some point's output block: position `i` in that of the point `i 0`. -/
theorem covered (i : S32x64x64x128.Idx) :
    ∃ t : Fin cfg0.N, (cfg0.win 1).flush t = true ∧ i ∈ ((cfg0.win 1).blk t).view.set := by
  have hi0 : (i 0).val < 32 := (i 0).isLt
  have hi1 : (i 1).val < 64 := (i 1).isLt
  have hi2 : (i 2).val < 64 := (i 2).isLt
  have hi3 : (i 3).val < 128 := (i 3).isLt
  have hN : cfg0.N = 32 := N_0
  obtain ⟨t, ht⟩ : ∃ t : Fin cfg0.N, t.val = (i 0).val := ⟨⟨(i 0).val, by rw [hN]; exact hi0⟩, rfl⟩
  obtain ⟨-, -, -, -, f0, f1, f2, f3, -⟩ := idx_facts t
  refine ⟨t, flush0_1 t, ?_⟩
  rw [mem_blk]
  intro a
  match a with
  | ⟨0, _⟩ => show win0_1.index t (0 : Fin 4) * 1 ≤ (i 0).val ∧ (i 0).val < win0_1.index t (0 : Fin 4) * 1 + 1; omega
  | ⟨1, _⟩ => show win0_1.index t (1 : Fin 4) * 64 ≤ (i 1).val ∧ (i 1).val < win0_1.index t (1 : Fin 4) * 64 + 64; omega
  | ⟨2, _⟩ => show win0_1.index t (2 : Fin 4) * 64 ≤ (i 2).val ∧ (i 2).val < win0_1.index t (2 : Fin 4) * 64 + 64; omega
  | ⟨3, _⟩ => show win0_1.index t (3 : Fin 4) * 128 ≤ (i 3).val ∧ (i 3).val < win0_1.index t (3 : Fin 4) * 128 + 128; omega

/-- The pallas_call's output array after the run is `regionOut` of the mask as the region finds it. -/
theorem final (c : Dev nD) : (dats m 0 c).arrAt 1 cfg0.N = regionOut (V m c main_arg1) :=
  (dats m 0 c).arrAt_eq_of_cover 1 (regionOut (V m c main_arg1)) (fun t _ => flushed_eq m c t) fun i => covered i

/-! ## The host lines after the region -/

/-- The result buffer after the fourteen host lines is `tailResult` of the pallas_call's output array and the
    updates: the lines read the output array where the region left it and the updates as launched. -/
theorem tail_eq (c : Dev nD) :
    Pipeline.afterTail₀ cfgs (dats m) 0 (V0 m) [hostOps1] c main_v11
      = tailResult ((dats m 0 c).arrAt 1 cfg0.N) (m ((c.tc : Thread nD τ).loc main_arg0)) := by
  have hA : Pipeline.withArrays (cfgs 0).spec c (V0 m c) (fun w => (dats m 0 c).arrAt w (cfgs 0).N)
      (Proc.devRef .tc main_v0) = (dats m 0 c).arrAt 1 cfg0.N :=
    Pipeline.withArrays_arr spec0 launch0.win.arr_inj c _ _ 1
  have hU : Pipeline.withArrays (cfgs 0).spec c (V0 m c) (fun w => (dats m 0 c).arrAt w (cfgs 0).N)
      (Proc.devRef .tc main_arg0) = m ((c.tc : Thread nD τ).loc main_arg0) :=
    (Pipeline.withArrays_of_ne _ c (V0 m c) _ main_arg0
      (by exact (by decide : ∀ w, Pipeline.arrRef spec0 w ≠ main_arg0))).trans (V_main_arg0 m c)
  unfold Pipeline.afterTail₀
  show StableHlo.after hostOps1 _ (Proc.devRef .tc main_v11) = _
  after_results
  rw [hA, hU]
  unfold tailResult flatIdx
  rfl

/-- The result buffer after the host lines, as a term of the two argument arrays as launched. -/
theorem result_eq (c : Dev nD) :
    Pipeline.afterTail₀ cfgs (dats m) 0 (V0 m) [hostOps1] c main_v11
      = tailResult (regionOut (m ((c.tc : Thread nD τ).loc main_arg1))) (m ((c.tc : Thread nD τ).loc main_arg0)) :=
  (tail_eq m c).trans (congrArg (fun A => tailResult A (m ((c.tc : Thread nD τ).loc main_arg0)))
    ((final m c).trans (congrArg regionOut (V_main_arg1 m c))))

end Blocks

/-! ## The run -/

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v11)
        = tailResult (regionOut (m ((c.tc : Thread nD τ).loc main_arg1))) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v11 (Pipeline.mem_restRefs_of main_v11 (by decide) (by decide))).trans (result_eq m c),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c)))⟩)
    (run_main m ρ)

end Cert.KernelIdeal.Hand

end
-- ==== Proof.RefRun.lean ====
/-
  The reference's run: every weakly fair execution of its @main ends with the result array at the updates
  added into zeros at (b, y, x, c), and the two argument arrays unchanged.

  @main is a straight line of 99 tensor operations once its three calls are unfolded at their call sites:
  the constant 16384 and the 17 operations of the first floor division (its select last); the constant 128 and
  the 17 of the second; the constant 128 and the 21 of the remainder; 39 operations of @main's own that build
  the batch and channel coordinates, wrap the four coordinates and spread each over a one-wide last axis; and
  the concatenate and the scatter-add. The line is cut at those five places. What each stretch leaves in the
  buffers a later stretch reads is computed stretch by stretch, from any contents, and the five facts are then
  composed: the result is the scatter-add of the updates into zeros at the concatenated coordinates, which is
  the term `refResult` names.
-/
import proofs.«429750_j88510686035968_3_alg».proof.Proof.Terms
import Idealize.ShloMosaic.Lib.StableHlo.Run
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The operations, in five stretches -/

/-- The constant 16384 and the first call of @floor_divide (on the mask and that constant), its @_where last:
    18 operations, ending at %0. -/
abbrev opsA : List (HloOp τ sig (Elt F)) :=
  [ StableHlo.nullary main_c (constantI S_ 32 16384#32),
    TRef.unary (.of main_c) main_call0.v0 id,
    TRef.unary main_call0.v0 main_call0.v1 (broadcastInDim S32x64x64x128 ![] bcast_S_S32x64x64x128),
    TRef.binary (.of main_arg1) main_call0.v1 main_call0.v2 Host.divsi,
    TRef.unary (.of main_arg1) main_call0.v3 signi,
    TRef.unary main_call0.v0 main_call0.v4 signi,
    TRef.unary main_call0.v4 main_call0.v5 (broadcastInDim S32x64x64x128 ![] bcast_S_S32x64x64x128),
    TRef.binary main_call0.v3 main_call0.v5 main_call0.v6 (cmpi .ne),
    TRef.unary main_call0.v0 main_call0.v7 (broadcastInDim S32x64x64x128 ![] bcast_S_S32x64x64x128),
    TRef.binary (.of main_arg1) main_call0.v7 main_call0.v8 Host.remsi,
    TRef.nullary main_call0.c (constantI S_ 32 0#32),
    TRef.unary main_call0.c main_call0.v9 (broadcastInDim S32x64x64x128 ![] bcast_S_S32x64x64x128),
    TRef.binary main_call0.v8 main_call0.v9 main_call0.v10 (cmpi .ne),
    TRef.binary main_call0.v6 main_call0.v10 main_call0.v11 andi,
    TRef.nullary main_call0.c_0 (constantI S_ 32 1#32),
    TRef.unary main_call0.c_0 main_call0.v12 (broadcastInDim S32x64x64x128 ![] bcast_S_S32x64x64x128),
    TRef.binary main_call0.v2 main_call0.v12 main_call0.v13 subi,
    TRef.ternary main_call0.v11 main_call0.v13 main_call0.v2 main_call0.call0.v0 select ]

/-- The constant 128 and the second call of @floor_divide (on the mask and that constant): 18 operations,
    ending at %1. -/
abbrev opsB : List (HloOp τ sig (Elt F)) :=
  [ StableHlo.nullary main_c_0 (constantI S_ 32 128#32),
    TRef.unary (.of main_c_0) main_call1.v0 id,
    TRef.unary main_call1.v0 main_call1.v1 (broadcastInDim S32x64x64x128 ![] bcast_S_S32x64x64x128),
    TRef.binary (.of main_arg1) main_call1.v1 main_call1.v2 Host.divsi,
    TRef.unary (.of main_arg1) main_call1.v3 signi,
    TRef.unary main_call1.v0 main_call1.v4 signi,
    TRef.unary main_call1.v4 main_call1.v5 (broadcastInDim S32x64x64x128 ![] bcast_S_S32x64x64x128),
    TRef.binary main_call1.v3 main_call1.v5 main_call1.v6 (cmpi .ne),
    TRef.unary main_call1.v0 main_call1.v7 (broadcastInDim S32x64x64x128 ![] bcast_S_S32x64x64x128),
    TRef.binary (.of main_arg1) main_call1.v7 main_call1.v8 Host.remsi,
    TRef.nullary main_call1.c (constantI S_ 32 0#32),
    TRef.unary main_call1.c main_call1.v9 (broadcastInDim S32x64x64x128 ![] bcast_S_S32x64x64x128),
    TRef.binary main_call1.v8 main_call1.v9 main_call1.v10 (cmpi .ne),
    TRef.binary main_call1.v6 main_call1.v10 main_call1.v11 andi,
    TRef.nullary main_call1.c_0 (constantI S_ 32 1#32),
    TRef.unary main_call1.c_0 main_call1.v12 (broadcastInDim S32x64x64x128 ![] bcast_S_S32x64x64x128),
    TRef.binary main_call1.v2 main_call1.v12 main_call1.v13 subi,
    TRef.ternary main_call1.v11 main_call1.v13 main_call1.v2 main_call1.call0.v0 select ]

/-- The constant 128 and the call of @remainder (on %1 and that constant), its @_where_0 after its fourth
    operation: 22 operations, ending at %2. -/
abbrev opsC : List (HloOp τ sig (Elt F)) :=
  [ StableHlo.nullary main_c_1 (constantI S_ 32 128#32),
    TRef.unary (.of main_c_1) main_call2.v0 id,
    TRef.nullary main_call2.c (constantI S_ 32 0#32),
    TRef.binary main_call2.v0 main_call2.c main_call2.v1 (cmpi .eq),
    TRef.nullary main_call2.c_0 (constantI S_ 32 1#32),
    TRef.ternary main_call2.v1 main_call2.c_0 main_call2.v0 main_call2.call0.v0 select,
    TRef.unary main_call2.call0.v0 main_call2.v3 (broadcastInDim S32x64x64x128 ![] bcast_S_S32x64x64x128),
    TRef.binary (.of main_v1) main_call2.v3 main_call2.v4 Host.remsi,
    TRef.nullary main_call2.c_1 (constantI S_ 32 0#32),
    TRef.unary main_call2.c_1 main_call2.v5 (broadcastInDim S32x64x64x128 ![] bcast_S_S32x64x64x128),
    TRef.binary main_call2.v4 main_call2.v5 main_call2.v6 (cmpi .ne),
    TRef.nullary main_call2.c_2 (constantI S_ 32 0#32),
    TRef.unary main_call2.c_2 main_call2.v7 (broadcastInDim S32x64x64x128 ![] bcast_S_S32x64x64x128),
    TRef.binary main_call2.v4 main_call2.v7 main_call2.v8 (cmpi .slt),
    TRef.nullary main_call2.c_3 (constantI S_ 32 0#32),
    TRef.binary main_call2.call0.v0 main_call2.c_3 main_call2.v9 (cmpi .slt),
    TRef.unary main_call2.v9 main_call2.v10 (broadcastInDim S32x64x64x128 ![] bcast_S_S32x64x64x128),
    TRef.binary main_call2.v8 main_call2.v10 main_call2.v11 (cmpi .ne),
    TRef.binary main_call2.v11 main_call2.v6 main_call2.v12 andi,
    TRef.unary main_call2.call0.v0 main_call2.v13 (broadcastInDim S32x64x64x128 ![] bcast_S_S32x64x64x128),
    TRef.binary main_call2.v4 main_call2.v13 main_call2.v14 addi,
    TRef.ternary main_call2.v12 main_call2.v14 main_call2.v4 main_call2.v15 select ]

/-- @main's own 39 operations after the calls: the batch and channel positions, the zero result array, each of the
    four coordinates wrapped where negative, and each spread over a one-wide last axis (%29 to %32). -/
abbrev opsD : List (HloOp τ sig (Elt F)) :=
  [ StableHlo.nullary main_v3 (iotaInDim S32 32 0),
    StableHlo.unary main_v3 main_v4 (broadcastInDim S32x1x1x1 ![0] bcast_S32_S32x1x1x1_0 : (⟨S32, .i32⟩ : BufTy).Contents (Elt F) → (⟨S32x1x1x1, .i32⟩ : BufTy).Contents (Elt F)),
    StableHlo.nullary main_v5 (iotaInDim S128 32 0),
    StableHlo.nullary main_cst (constant S_ .f32 0x00000000#32),
    StableHlo.unary main_cst main_v6 (broadcastInDim S32x128x128x128 ![] bcast_S_S32x128x128x128 : (⟨S_, .f32⟩ : BufTy).Contents (Elt F) → (⟨S32x128x128x128, .f32⟩ : BufTy).Contents (Elt F)),
    StableHlo.nullary main_c_2 (constantI S_ 32 0#32),
    StableHlo.unary main_c_2 main_v7 (broadcastInDim S32x1x1x1 ![] bcast_S_S32x1x1x1 : (⟨S_, .i32⟩ : BufTy).Contents (Elt F) → (⟨S32x1x1x1, .i32⟩ : BufTy).Contents (Elt F)),
    StableHlo.binary main_v4 main_v7 main_v8 (cmpi .slt : (⟨S32x1x1x1, .i32⟩ : BufTy).Contents (Elt F) → (⟨S32x1x1x1, .i32⟩ : BufTy).Contents (Elt F) → (⟨S32x1x1x1, .i1⟩ : BufTy).Contents (Elt F)),
    StableHlo.nullary main_c_3 (constantI S_ 32 32#32),
    StableHlo.unary main_c_3 main_v9 (broadcastInDim S32x1x1x1 ![] bcast_S_S32x1x1x1 : (⟨S_, .i32⟩ : BufTy).Contents (Elt F) → (⟨S32x1x1x1, .i32⟩ : BufTy).Contents (Elt F)),
    StableHlo.binary main_v4 main_v9 main_v10 (addi : (⟨S32x1x1x1, .i32⟩ : BufTy).Contents (Elt F) → (⟨S32x1x1x1, .i32⟩ : BufTy).Contents (Elt F) → (⟨S32x1x1x1, .i32⟩ : BufTy).Contents (Elt F)),
    StableHlo.ternary main_v8 main_v10 main_v4 main_v11 (select : (⟨S32x1x1x1, .i1⟩ : BufTy).Contents (Elt F) → (⟨S32x1x1x1, .i32⟩ : BufTy).Contents (Elt F) → (⟨S32x1x1x1, .i32⟩ : BufTy).Contents (Elt F) → (⟨S32x1x1x1, .i32⟩ : BufTy).Contents (Elt F)),
    StableHlo.nullary main_c_4 (constantI S_ 32 0#32),
    StableHlo.unary main_c_4 main_v12 (broadcastInDim S32x64x64x128 ![] bcast_S_S32x64x64x128 : (⟨S_, .i32⟩ : BufTy).Contents (Elt F) → (⟨S32x64x64x128, .i32⟩ : BufTy).Contents (Elt F)),
    StableHlo.binary main_v0 main_v12 main_v13 (cmpi .slt : (⟨S32x64x64x128, .i32⟩ : BufTy).Contents (Elt F) → (⟨S32x64x64x128, .i32⟩ : BufTy).Contents (Elt F) → (⟨S32x64x64x128, .i1⟩ : BufTy).Contents (Elt F)),
    StableHlo.nullary main_c_5 (constantI S_ 32 128#32),
    StableHlo.unary main_c_5 main_v14 (broadcastInDim S32x64x64x128 ![] bcast_S_S32x64x64x128 : (⟨S_, .i32⟩ : BufTy).Contents (Elt F) → (⟨S32x64x64x128, .i32⟩ : BufTy).Contents (Elt F)),
    StableHlo.binary main_v0 main_v14 main_v15 (addi : (⟨S32x64x64x128, .i32⟩ : BufTy).Contents (Elt F) → (⟨S32x64x64x128, .i32⟩ : BufTy).Contents (Elt F) → (⟨S32x64x64x128, .i32⟩ : BufTy).Contents (Elt F)),
    StableHlo.ternary main_v13 main_v15 main_v0 main_v16 (select : (⟨S32x64x64x128, .i1⟩ : BufTy).Contents (Elt F) → (⟨S32x64x64x128, .i32⟩ : BufTy).Contents (Elt F) → (⟨S32x64x64x128, .i32⟩ : BufTy).Contents (Elt F) → (⟨S32x64x64x128, .i32⟩ : BufTy).Contents (Elt F)),
    StableHlo.nullary main_c_6 (constantI S_ 32 0#32),
    StableHlo.unary main_c_6 main_v17 (broadcastInDim S32x64x64x128 ![] bcast_S_S32x64x64x128 : (⟨S_, .i32⟩ : BufTy).Contents (Elt F) → (⟨S32x64x64x128, .i32⟩ : BufTy).Contents (Elt F)),
    StableHlo.binary main_v2 main_v17 main_v18 (cmpi .slt : (⟨S32x64x64x128, .i32⟩ : BufTy).Contents (Elt F) → (⟨S32x64x64x128, .i32⟩ : BufTy).Contents (Elt F) → (⟨S32x64x64x128, .i1⟩ : BufTy).Contents (Elt F)),
    StableHlo.nullary main_c_7 (constantI S_ 32 128#32),
    StableHlo.unary main_c_7 main_v19 (broadcastInDim S32x64x64x128 ![] bcast_S_S32x64x64x128 : (⟨S_, .i32⟩ : BufTy).Contents (Elt F) → (⟨S32x64x64x128, .i32⟩ : BufTy).Contents (Elt F)),
    StableHlo.binary main_v2 main_v19 main_v20 (addi : (⟨S32x64x64x128, .i32⟩ : BufTy).Contents (Elt F) → (⟨S32x64x64x128, .i32⟩ : BufTy).Contents (Elt F) → (⟨S32x64x64x128, .i32⟩ : BufTy).Contents (Elt F)),
    StableHlo.ternary main_v18 main_v20 main_v2 main_v21 (select : (⟨S32x64x64x128, .i1⟩ : BufTy).Contents (Elt F) → (⟨S32x64x64x128, .i32⟩ : BufTy).Contents (Elt F) → (⟨S32x64x64x128, .i32⟩ : BufTy).Contents (Elt F) → (⟨S32x64x64x128, .i32⟩ : BufTy).Contents (Elt F)),
    StableHlo.nullary main_c_8 (constantI S_ 32 0#32),
    StableHlo.unary main_c_8 main_v22 (broadcastInDim S128 ![] bcast_S_S128 : (⟨S_, .i32⟩ : BufTy).Contents (Elt F) → (⟨S128, .i32⟩ : BufTy).Contents (Elt F)),
    StableHlo.binary main_v5 main_v22 main_v23 (cmpi .slt : (⟨S128, .i32⟩ : BufTy).Contents (Elt F) → (⟨S128, .i32⟩ : BufTy).Contents (Elt F) → (⟨S128, .i1⟩ : BufTy).Contents (Elt F)),
    StableHlo.nullary main_c_9 (constantI S_ 32 128#32),
    StableHlo.unary main_c_9 main_v24 (broadcastInDim S128 ![] bcast_S_S128 : (⟨S_, .i32⟩ : BufTy).Contents (Elt F) → (⟨S128, .i32⟩ : BufTy).Contents (Elt F)),
    StableHlo.binary main_v5 main_v24 main_v25 (addi : (⟨S128, .i32⟩ : BufTy).Contents (Elt F) → (⟨S128, .i32⟩ : BufTy).Contents (Elt F) → (⟨S128, .i32⟩ : BufTy).Contents (Elt F)),
    StableHlo.ternary main_v23 main_v25 main_v5 main_v26 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    StableHlo.unary main_v11 main_v27 (broadcastInDim S32x64x64x128 ![0, 1, 2, 3] bcast_S32x1x1x1_S32x64x64x128_0_1_2_3 : (⟨S32x1x1x1, .i32⟩ : BufTy).Contents (Elt F) → (⟨S32x64x64x128, .i32⟩ : BufTy).Contents (Elt F)),
    StableHlo.unary main_v26 main_v28 (broadcastInDim S32x64x64x128 ![3] bcast_S128_S32x64x64x128_3 : (⟨S128, .i32⟩ : BufTy).Contents (Elt F) → (⟨S32x64x64x128, .i32⟩ : BufTy).Contents (Elt F)),
    StableHlo.unary main_v27 main_v29 (broadcastInDim S32x64x64x128x1 ![0, 1, 2, 3] bcast_S32x64x64x128_S32x64x64x128x1_0_1_2_3 : (⟨S32x64x64x128, .i32⟩ : BufTy).Contents (Elt F) → (⟨S32x64x64x128x1, .i32⟩ : BufTy).Contents (Elt F)),
    StableHlo.unary main_v16 main_v30 (broadcastInDim S32x64x64x128x1 ![0, 1, 2, 3] bcast_S32x64x64x128_S32x64x64x128x1_0_1_2_3 : (⟨S32x64x64x128, .i32⟩ : BufTy).Contents (Elt F) → (⟨S32x64x64x128x1, .i32⟩ : BufTy).Contents (Elt F)),
    StableHlo.unary main_v21 main_v31 (broadcastInDim S32x64x64x128x1 ![0, 1, 2, 3] bcast_S32x64x64x128_S32x64x64x128x1_0_1_2_3 : (⟨S32x64x64x128, .i32⟩ : BufTy).Contents (Elt F) → (⟨S32x64x64x128x1, .i32⟩ : BufTy).Contents (Elt F)),
    StableHlo.unary main_v28 main_v32 (broadcastInDim S32x64x64x128x1 ![0, 1, 2, 3] bcast_S32x64x64x128_S32x64x64x128x1_0_1_2_3 : (⟨S32x64x64x128, .i32⟩ : BufTy).Contents (Elt F) → (⟨S32x64x64x128x1, .i32⟩ : BufTy).Contents (Elt F)) ]

/-- The concatenate of the four one-wide coordinate arrays along the last axis, and the scatter-add of the updates
    into the zero array at those coordinates. -/
abbrev opsE : List (HloOp τ sig (Elt F)) :=
  [ StableHlo.nary ![main_v29, main_v30, main_v31, main_v32] main_v33 (fun u => concatenate S32x64x64x128x4 4 [⟨S32x64x64x128x1, u 0⟩, ⟨S32x64x64x128x1, u 1⟩, ⟨S32x64x64x128x1, u 2⟩, ⟨S32x64x64x128x1, u 3⟩] concatenates_S32x64x64x128x1_S32x64x64x128x1_S32x64x64x128x1_S32x64x64x128x1_S32x64x64x128x4_d4),
    StableHlo.ternary main_v6 main_v33 main_arg0 main_v34 ((fun x i u => Host.scatterAdd scatter_S32x128x128x128_S32x64x64x128x4_S32x64x64x128_n_0123_0123_4 x i u) : (⟨S32x128x128x128, .f32⟩ : BufTy).Contents (Elt F) → (⟨S32x64x64x128x4, .i32⟩ : BufTy).Contents (Elt F) → (⟨S32x64x64x128, .f32⟩ : BufTy).Contents (Elt F) → (⟨S32x128x128x128, .f32⟩ : BufTy).Contents (Elt F)) ]

/-- @main's 99 operations, in order. -/
abbrev ops : List (HloOp τ sig (Elt F)) := opsA ++ (opsB ++ (opsC ++ (opsD ++ opsE)))

/-! ## @main is that line -/

-- 99 binds re-associated: one level of recursion per statement
set_option maxRecDepth 4096 in
set_option maxHeartbeats 1000000 in
/-- @main is the straight line of the 99 operations: the three functions' bodies unfolded at their calls (and the
    two selects' inside them), the five stretches run one after the other, and sequencing re-associated. -/
theorem main_eq (c : Dev nD) : main (F := F) c = seq ops := by
  simp only [ops, seq_append, main, fn_floor_divide.body, fn_remainder.body, fn_where.body, fn_where_0.body, seq,
    bind_assoc, pure_bind]

/-! ## The side conditions of the run -/

theorem scopedRefs_eq : (Finset.univ.filter fun b : Ref sig .tc => b.isScoped) = ∅ := by decide
theorem scopedSems_eq : (Finset.univ.filter fun sm : SemLoc sig => sm.isScoped .tc) = ∅ := by decide

universe u in
/-- What holds of every element of two lists holds of every element of the one after the other. -/
theorem forall_append {α : Type u} {p : α → Prop} {l₁ l₂ : List α} (h₁ : l₁.Forall p) (h₂ : l₂.Forall p) :
    (l₁ ++ l₂).Forall p :=
  List.forall_iff_forall_mem.2 fun x hx =>
    (List.mem_append.1 hx).elim (List.forall_iff_forall_mem.1 h₁ x) (List.forall_iff_forall_mem.1 h₂ x)

/-- Every operation touches TensorCore references only: stretch by stretch, one fact per operation. -/
theorem opsA_sub : (opsA : List (HloOp τ sig (Elt F))).Forall fun op => op.bufs ⊆ tcRefs τ sig :=
  ⟨
    nullary_bufs_sub .., unary_bufs_sub .., unary_bufs_sub .., binary_bufs_sub .., unary_bufs_sub .., unary_bufs_sub ..,
    unary_bufs_sub .., binary_bufs_sub .., unary_bufs_sub .., binary_bufs_sub .., nullary_bufs_sub .., unary_bufs_sub ..,
    binary_bufs_sub .., binary_bufs_sub .., nullary_bufs_sub .., unary_bufs_sub .., binary_bufs_sub .., ternary_bufs_sub ..⟩

theorem opsB_sub : (opsB : List (HloOp τ sig (Elt F))).Forall fun op => op.bufs ⊆ tcRefs τ sig :=
  ⟨
    nullary_bufs_sub .., unary_bufs_sub .., unary_bufs_sub .., binary_bufs_sub .., unary_bufs_sub .., unary_bufs_sub ..,
    unary_bufs_sub .., binary_bufs_sub .., unary_bufs_sub .., binary_bufs_sub .., nullary_bufs_sub .., unary_bufs_sub ..,
    binary_bufs_sub .., binary_bufs_sub .., nullary_bufs_sub .., unary_bufs_sub .., binary_bufs_sub .., ternary_bufs_sub ..⟩

theorem opsC_sub : (opsC : List (HloOp τ sig (Elt F))).Forall fun op => op.bufs ⊆ tcRefs τ sig :=
  ⟨
    nullary_bufs_sub .., unary_bufs_sub .., nullary_bufs_sub .., binary_bufs_sub .., nullary_bufs_sub .., ternary_bufs_sub ..,
    unary_bufs_sub .., binary_bufs_sub .., nullary_bufs_sub .., unary_bufs_sub .., binary_bufs_sub .., nullary_bufs_sub ..,
    unary_bufs_sub .., binary_bufs_sub .., nullary_bufs_sub .., binary_bufs_sub .., unary_bufs_sub .., binary_bufs_sub ..,
    binary_bufs_sub .., unary_bufs_sub .., binary_bufs_sub .., ternary_bufs_sub ..⟩

theorem opsD_sub : (opsD : List (HloOp τ sig (Elt F))).Forall fun op => op.bufs ⊆ tcRefs τ sig :=
  ⟨
    nullary_bufs_sub .., unary_bufs_sub .., nullary_bufs_sub .., nullary_bufs_sub .., unary_bufs_sub .., nullary_bufs_sub ..,
    unary_bufs_sub .., binary_bufs_sub .., nullary_bufs_sub .., unary_bufs_sub .., binary_bufs_sub .., ternary_bufs_sub ..,
    nullary_bufs_sub .., unary_bufs_sub .., binary_bufs_sub .., nullary_bufs_sub .., unary_bufs_sub .., binary_bufs_sub ..,
    ternary_bufs_sub .., nullary_bufs_sub .., unary_bufs_sub .., binary_bufs_sub .., nullary_bufs_sub .., unary_bufs_sub ..,
    binary_bufs_sub .., ternary_bufs_sub .., nullary_bufs_sub .., unary_bufs_sub .., binary_bufs_sub .., nullary_bufs_sub ..,
    unary_bufs_sub .., binary_bufs_sub .., ternary_bufs_sub .., unary_bufs_sub .., unary_bufs_sub .., unary_bufs_sub ..,
    unary_bufs_sub .., unary_bufs_sub .., unary_bufs_sub ..⟩

theorem opsE_sub : (opsE : List (HloOp τ sig (Elt F))).Forall fun op => op.bufs ⊆ tcRefs τ sig :=
  ⟨nary_bufs_sub .., ternary_bufs_sub ..⟩

theorem ops_sub : (ops : List (HloOp τ sig (Elt F))).Forall fun op => op.bufs ⊆ tcRefs τ sig :=
  forall_append opsA_sub (forall_append opsB_sub (forall_append opsC_sub (forall_append opsD_sub opsE_sub)))

/-- Every operation determines all it writes (none leaves a buffer at contents not chosen): each stretch's list
    peeled one operation at a time. -/
theorem opsA_fresh : ∀ op ∈ (opsA : List (HloOp τ sig (Elt F))), op.fresh = ∅ := by
  intro _ h
  repeat (cases h with | head => rfl | tail _ h => ?_)
  exact nomatch h

theorem opsB_fresh : ∀ op ∈ (opsB : List (HloOp τ sig (Elt F))), op.fresh = ∅ := by
  intro _ h
  repeat (cases h with | head => rfl | tail _ h => ?_)
  exact nomatch h

theorem opsC_fresh : ∀ op ∈ (opsC : List (HloOp τ sig (Elt F))), op.fresh = ∅ := by
  intro _ h
  repeat (cases h with | head => rfl | tail _ h => ?_)
  exact nomatch h

theorem opsD_fresh : ∀ op ∈ (opsD : List (HloOp τ sig (Elt F))), op.fresh = ∅ := by
  intro _ h
  repeat (cases h with | head => rfl | tail _ h => ?_)
  exact nomatch h

theorem opsE_fresh : ∀ op ∈ (opsE : List (HloOp τ sig (Elt F))), op.fresh = ∅ := by
  intro _ h
  repeat (cases h with | head => rfl | tail _ h => ?_)
  exact nomatch h

theorem ops_fresh : ∀ op ∈ (ops : List (HloOp τ sig (Elt F))), op.fresh = ∅ := fun op h =>
  (List.mem_append.1 h).elim (opsA_fresh op) fun h => (List.mem_append.1 h).elim (opsB_fresh op) fun h =>
    (List.mem_append.1 h).elim (opsC_fresh op) fun h => (List.mem_append.1 h).elim (opsD_fresh op) (opsE_fresh op)

/-! ## What each stretch leaves, from any contents -/

/-- After the first stretch %0 holds the floor division of the mask by 16384, and the two arguments are as they were. -/
theorem afterA (V : Valuation τ sig (Elt F)) :
    after opsA V (main_v0 : DevRef τ sig) = floorDivide (V (main_arg1 : DevRef τ sig)) (constantI S_ 32 16384#32)
    ∧ after opsA V (main_arg0 : DevRef τ sig) = V (main_arg0 : DevRef τ sig)
    ∧ after opsA V (main_arg1 : DevRef τ sig) = V (main_arg1 : DevRef τ sig) := by
  refine ⟨?_, ?_, ?_⟩
  · after_results_simp
    rfl
  · after_results_simp
  · after_results_simp

/-- After the second stretch %1 holds the floor division of the mask by 128; %0 and the two arguments are as they were. -/
theorem afterB (V : Valuation τ sig (Elt F)) :
    after opsB V (main_v1 : DevRef τ sig) = floorDivide (V (main_arg1 : DevRef τ sig)) (constantI S_ 32 128#32)
    ∧ after opsB V (main_v0 : DevRef τ sig) = V (main_v0 : DevRef τ sig)
    ∧ after opsB V (main_arg0 : DevRef τ sig) = V (main_arg0 : DevRef τ sig)
    ∧ after opsB V (main_arg1 : DevRef τ sig) = V (main_arg1 : DevRef τ sig) := by
  refine ⟨?_, ?_, ?_, ?_⟩
  · after_results_simp
    rfl
  · after_results_simp
  · after_results_simp
  · after_results_simp

/-- After the third stretch %2 holds the remainder of %1 by 128; %0 and the two arguments are as they were. -/
theorem afterC (V : Valuation τ sig (Elt F)) :
    after opsC V (main_v2 : DevRef τ sig) = remainder (V (main_v1 : DevRef τ sig)) (constantI S_ 32 128#32)
    ∧ after opsC V (main_v0 : DevRef τ sig) = V (main_v0 : DevRef τ sig)
    ∧ after opsC V (main_arg0 : DevRef τ sig) = V (main_arg0 : DevRef τ sig)
    ∧ after opsC V (main_arg1 : DevRef τ sig) = V (main_arg1 : DevRef τ sig) := by
  refine ⟨?_, ?_, ?_, ?_⟩
  · after_results_simp
    rfl
  · after_results_simp
  · after_results_simp
  · after_results_simp

/-- After the fourth stretch %29 to %32 hold the batch coordinate, %0 wrapped, %2 wrapped and the channel coordinate,
    each over a one-wide last axis; %6 is the zero array; the two arguments are as they were. -/
theorem afterD (V : Valuation τ sig (Elt F)) :
    after opsD V (main_v29 : DevRef τ sig) = col bIdx
    ∧ after opsD V (main_v30 : DevRef τ sig) = col (wrapNeg (V (main_v0 : DevRef τ sig)) 128#32)
    ∧ after opsD V (main_v31 : DevRef τ sig) = col (wrapNeg (V (main_v2 : DevRef τ sig)) 128#32)
    ∧ after opsD V (main_v32 : DevRef τ sig) = col fIdx
    ∧ after opsD V (main_v6 : DevRef τ sig)
        = (broadcastInDim S32x128x128x128 ![] bcast_S_S32x128x128x128 (constant S_ .f32 0x00000000#32) : FVec F S32x128x128x128 .f32)
    ∧ after opsD V (main_arg0 : DevRef τ sig) = V (main_arg0 : DevRef τ sig)
    ∧ after opsD V (main_arg1 : DevRef τ sig) = V (main_arg1 : DevRef τ sig) := by
  refine ⟨?_, ?_, ?_, ?_, ?_, ?_, ?_⟩
  · after_results_simp
    rfl
  · after_results_simp
    rfl
  · after_results_simp
    rfl
  · after_results_simp
    rfl
  · after_results_simp
  · after_results_simp
  · after_results_simp

/-- After the last stretch %34 holds the scatter-add of the updates into %6 at the concatenation of %29 to %32,
    and the two arguments are as they were. -/
theorem afterE (V : Valuation τ sig (Elt F)) :
    after opsE V (main_v34 : DevRef τ sig)
        = Host.scatterAdd scatter_S32x128x128x128_S32x64x64x128x4_S32x64x64x128_n_0123_0123_4
            (V (main_v6 : DevRef τ sig))
            (concatenate S32x64x64x128x4 4
              [⟨S32x64x64x128x1, V (main_v29 : DevRef τ sig)⟩, ⟨S32x64x64x128x1, V (main_v30 : DevRef τ sig)⟩,
               ⟨S32x64x64x128x1, V (main_v31 : DevRef τ sig)⟩, ⟨S32x64x64x128x1, V (main_v32 : DevRef τ sig)⟩]
              concatenates_S32x64x64x128x1_S32x64x64x128x1_S32x64x64x128x1_S32x64x64x128x1_S32x64x64x128x4_d4)
            (V (main_arg0 : DevRef τ sig))
    ∧ after opsE V (main_arg0 : DevRef τ sig) = V (main_arg0 : DevRef τ sig)
    ∧ after opsE V (main_arg1 : DevRef τ sig) = V (main_arg1 : DevRef τ sig) := by
  refine ⟨?_, ?_, ?_⟩
  · after_results
    rfl
  · after_results
  · after_results

/-! ## The whole line -/

/-- The five stretches composed: the result buffer holds `refResult` of the mask and the updates. -/
theorem out_eq (V : Valuation τ sig (Elt F)) :
    after ops V (main_v34 : DevRef τ sig)
      = refResult (V (main_arg1 : DevRef τ sig)) (V (main_arg0 : DevRef τ sig)) := by
  simp only [ops, StableHlo.after_append]
  rw [(afterE _).1, (afterD _).1, (afterD _).2.1, (afterD _).2.2.1, (afterD _).2.2.2.1, (afterD _).2.2.2.2.1,
    (afterD _).2.2.2.2.2.1, (afterC _).1, (afterC _).2.1, (afterC _).2.2.1, (afterB _).1, (afterB _).2.1,
    (afterB _).2.2.1, (afterA _).1, (afterA _).2.1, (afterA _).2.2]
  rfl

theorem arg0_eq (V : Valuation τ sig (Elt F)) :
    after ops V (main_arg0 : DevRef τ sig) = V (main_arg0 : DevRef τ sig) := by
  simp only [ops, StableHlo.after_append]
  rw [(afterE _).2.1, (afterD _).2.2.2.2.2.1, (afterC _).2.2.1, (afterB _).2.2.1, (afterA _).2.1]

theorem arg1_eq (V : Valuation τ sig (Elt F)) :
    after ops V (main_arg1 : DevRef τ sig) = V (main_arg1 : DevRef τ sig) := by
  simp only [ops, StableHlo.after_append]
  rw [(afterE _).2.2, (afterD _).2.2.2.2.2.2, (afterC _).2.2.2, (afterB _).2.2.2, (afterA _).2.2]

/-- On every device, for any float values, from any memory with zero counters: every weakly fair execution of
    @main terminates with the result array at `refResult` of the mask and the updates, and the two arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v34)
        = refResult (m ((c.tc : Thread nD τ).loc main_arg1)) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono
    (fun _ h c => ⟨(h c main_v34).trans (out_eq _), (h c main_arg0).trans (arg0_eq _), (h c main_arg1).trans (arg1_eq _)⟩)
    (run_seq scopedRefs_eq scopedSems_eq defs main (fun _ => ops) main_eq (fun _ => ops_sub) m ρ (fun _ => ops_fresh))

end Cert.ReferenceIdeal.Hand

end
-- ==== Proof.PreDecode.lean ====
/-
  The precondition, decoded: where the printed predicate is all ones, every mask entry m satisfies
  0 ≤ m < 2097152 (the two integer conjuncts are each an all-reduction of a comparison against a constant).
-/
import proofs.«429750_j88510686035968_3_alg».proof.Defs
import proofs.«429750_j88510686035968_3_alg».proof.Proof.Gen.Pre_finite_inputs
import Idealize.ShloMosaic.Lib.ReduceAll
import Idealize.ShloMosaic.Lib.ValueIdx

noncomputable section

open Idealize.ShloMosaic Idealize.ShloMosaic.ValueIdx

namespace Cert.Unpool

open Cert.Pre_finite_inputs Cert.Pre_finite_inputs.Gen

instance : Subsingleton Cert.Pre_finite_inputs.S_.Idx := ⟨fun a b => funext fun d => d.elim0⟩

/-- The printed precondition holding makes every mask entry a flat position inside one batch element's output. -/
theorem mask_range {F : FTy → Type} [FloatOps F] (upd : FVec F S32x64x64x128 .f32) (mask : IVec S32x64x64x128 32)
    (hpre : Cert.Pre_finite_inputs.fn (F := F) upd mask = fun _ => 1#1) (j : S32x64x64x128.Idx) :
    0 ≤ (mask j).toInt ∧ (mask j).toInt < 2097152 := by
  have h0 := congrFun hpre ix0
  dsimp only [Cert.Pre_finite_inputs.fn] at h0
  obtain ⟨h1, hlt⟩ := IntOp.andi_eq_one.mp h0
  obtain ⟨_, hge⟩ := IntOp.andi_eq_one.mp h1
  have hge' := Host.reduce_andi_all _ _ _ _ _ hge j
  have hlt' := Host.reduce_andi_all _ _ _ _ _ hlt j
  have e1 : 0 ≤ (mask j).toInt := by
    have := IntOp.cmpi_sge.mp hge'
    simpa [broadcastInDim, constantI] using this
  have e2 : (mask j).toInt < 2097152 := by
    have := IntOp.cmpi_slt.mp hlt'
    simpa [broadcastInDim, constantI] using this
  exact ⟨e1, e2⟩

end Cert.Unpool

end
-- ==== Proof.RefIndex.lean ====
/-
  The reference's index array read at an entry, for a mask entry m with 0 ≤ m < 2097152: the four components
  are b, ⌊m / 16384⌋, ⌊m / 128⌋ mod 128 and c, none of them wrapped.

  The road: first the words. For a word m that reads nonnegative and a positive divisor d (both below 2³¹) the
  truncating quotient and remainder are the quotient and remainder of the unsigned readings; floor division differs
  from the truncating quotient only where the signs of m and d differ and the remainder is not zero, which for
  m ≥ 0 < d can only be at m = 0, where the remainder is zero; the sign-following remainder differs from the
  truncating one only where its sign differs from the divisor's, and both are nonnegative here; and the wrap of a
  negative coordinate does not fire on a nonnegative one. Then the arrays: each array of the reference read at
  (b, h, w, c) is one of these word functions of the mask's entry there (or of the coordinate b or c), and the
  concatenation of the four one-wide slabs read at (b, h, w, c, a) is slab a at (b, h, w, c, 0).
-/
import proofs.«429750_j88510686035968_3_alg».proof.Proof.Terms
import Idealize.ShloMosaic.Lib.ValueIdx
import Idealize.ShloMosaic.Lib.Affine
import Idealize.ShloMosaic.Lib.Pipeline.Value

noncomputable section

namespace Cert.ReferenceIdeal.Hand

open Cert.ReferenceIdeal Cert.ReferenceIdeal.Gen Idealize.ShloMosaic Idealize.ShloMosaic.ValueIdx

/-! ## Words -/

/-- A word that reads nonnegative and below 2097152 signed reads the same unsigned. -/
theorem toNat_lt_of_toInt {m : BitVec 32} (h0 : 0 ≤ m.toInt) (h1 : m.toInt < 2097152) : m.toNat < 2097152 := by
  have := m.isLt
  rw [BitVec.toInt_eq_toNat_cond] at h0 h1
  split at h0 <;> omega

/-- A word below 2³¹ has its top bit clear … -/
theorem msb_false_of_small {x : BitVec 32} (hx : 2 * x.toNat < 2 ^ 32) : x.msb = false := by
  rw [BitVec.msb_eq_false_iff_two_mul_lt]; exact hx

/-- … reads the same signed as unsigned … -/
theorem toInt_of_small {x : BitVec 32} (hx : 2 * x.toNat < 2 ^ 32) : x.toInt = (x.toNat : Int) :=
  BitVec.toInt_eq_toNat_of_lt hx

/-- … and does not test negative. -/
theorem slt_zero_of_small {x : BitVec 32} (hx : 2 * x.toNat < 2 ^ 32) : IntOp.cmpi .slt x 0#32 = 0#1 := by
  refine eq_zero_of_ne_one ?_
  rw [IntOp.cmpi_slt, toInt_of_small hx, show (0#32 : BitVec 32).toInt = 0 from by decide]
  omega

/-- A nonzero word below 2³¹ reads positive signed. -/
theorem pos_toInt {D : BitVec 32} (hD0 : 0 < D.toNat) (hD : 2 * D.toNat < 2 ^ 32) : 0 < D.toInt := by
  rw [toInt_of_small hD]; omega

/-- The truncating quotient of a nonnegative word by a positive one is the quotient of the unsigned readings. -/
theorem toNat_divsi {x D : BitVec 32} (hx : 2 * x.toNat < 2 ^ 32) (hD0 : 0 < D.toNat) (hD : 2 * D.toNat < 2 ^ 32) :
    (IntOp.divsi .host x D).toNat = x.toNat / D.toNat := by
  have hc : ¬IntOp.SDivCorner x D := IntOp.not_corner_of_pos (pos_toInt hD0 hD)
  rw [IntOp.divsi, if_neg hc, BitVec.sdiv_eq, msb_false_of_small hx, msb_false_of_small hD]
  show (x / D).toNat = _
  rw [BitVec.toNat_udiv]

/-- The truncating remainder of a nonnegative word by a positive one is the remainder of the unsigned readings. -/
theorem toNat_remsi' {x D : BitVec 32} (hx : 2 * x.toNat < 2 ^ 32) (hD0 : 0 < D.toNat) (hD : 2 * D.toNat < 2 ^ 32) :
    (IntOp.remsi .host x D).toNat = x.toNat % D.toNat := by
  have := IntOp.toNat_remsi .host hx D.toNat hD0 hD
  rwa [BitVec.ofNat_toNat, BitVec.setWidth_eq] at this

/-! ## The reference's arrays at an index, as word functions of the entry -/

/-- One entry of `floorDivide`, as a function of the entry and the divisor. -/
def fdS (m D : BitVec 32) : BitVec 32 :=
  Scalar.select
    (IntOp.andi
      (IntOp.cmpi .ne (if m = 0 then (0 : BitVec 32) else if m.msb then -1 else 1)
        (if D = 0 then (0 : BitVec 32) else if D.msb then -1 else 1))
      (IntOp.cmpi .ne (IntOp.remsi .host m D) 0#32))
    (IntOp.subi (IntOp.divsi .host m D) 1#32) (IntOp.divsi .host m D)

theorem floorDivide_apply (x : IVec S32x64x64x128 32) (D : BitVec 32) (j : S32x64x64x128.Idx) :
    floorDivide x (constantI S_ 32 D) j = fdS (x j) D := rfl

/-- One entry of `remainder`. -/
def rmS (q D : BitVec 32) : BitVec 32 :=
  Scalar.select
    (IntOp.andi
      (IntOp.cmpi .ne (IntOp.cmpi .slt (IntOp.remsi .host q (Scalar.select (IntOp.cmpi .eq D 0#32) 1#32 D)) 0#32)
        (IntOp.cmpi .slt (Scalar.select (IntOp.cmpi .eq D 0#32) 1#32 D) 0#32))
      (IntOp.cmpi .ne (IntOp.remsi .host q (Scalar.select (IntOp.cmpi .eq D 0#32) 1#32 D)) 0#32))
    (IntOp.addi (IntOp.remsi .host q (Scalar.select (IntOp.cmpi .eq D 0#32) 1#32 D)) (Scalar.select (IntOp.cmpi .eq D 0#32) 1#32 D))
    (IntOp.remsi .host q (Scalar.select (IntOp.cmpi .eq D 0#32) 1#32 D))

theorem remainder_apply (x : IVec S32x64x64x128 32) (D : BitVec 32) (j : S32x64x64x128.Idx) :
    remainder x (constantI S_ 32 D) j = rmS (x j) D := rfl

def wS (x n : BitVec 32) : BitVec 32 := Scalar.select (IntOp.cmpi .slt x 0#32) (IntOp.addi x n) x

theorem wrapNeg_apply (x : IVec S32x64x64x128 32) (n : BitVec 32) (j : S32x64x64x128.Idx) :
    wrapNeg x n j = wS (x j) n := rfl

theorem yIdx_apply (mask : IVec S32x64x64x128 32) (j : S32x64x64x128.Idx) :
    yIdx mask j = wS (fdS (mask j) 16384#32) 128#32 := rfl

theorem xIdx_apply (mask : IVec S32x64x64x128 32) (j : S32x64x64x128.Idx) :
    xIdx mask j = wS (rmS (fdS (mask j) 128#32) 128#32) 128#32 := rfl

theorem bIdx_apply (b : Fin 32) (h : Fin 64) (w : Fin 64) (c : Fin 128) :
    bIdx (ix4 b h w c) = wS (BitVec.ofNat 32 b.val) 32#32 := rfl

theorem fIdx_apply (b : Fin 32) (h : Fin 64) (w : Fin 64) (c : Fin 128) :
    fIdx (ix4 b h w c) = wS (BitVec.ofNat 32 c.val) 128#32 := rfl

/-! ## The word functions on a nonnegative entry -/

/-- For a nonnegative entry and a positive divisor, floor division keeps the truncating quotient: the signs differ
    only at the entry 0, whose remainder is 0. -/
theorem fdS_of_nonneg {m D : BitVec 32} (hm : 2 * m.toNat < 2 ^ 32) (hD0 : 0 < D.toNat) (hD : 2 * D.toNat < 2 ^ 32) :
    fdS m D = IntOp.divsi .host m D := by
  have hDne : D ≠ 0 := by intro h; subst h; simp at hD0
  have hc : IntOp.andi
      (IntOp.cmpi .ne (if m = 0 then (0 : BitVec 32) else if m.msb then -1 else 1)
        (if D = 0 then (0 : BitVec 32) else if D.msb then -1 else 1))
      (IntOp.cmpi .ne (IntOp.remsi .host m D) 0#32) = 0#1 := by
    refine eq_zero_of_ne_one fun h => ?_
    obtain ⟨h1, h2⟩ := IntOp.andi_eq_one.1 h
    rw [IntOp.cmpi_ne] at h1 h2
    rw [if_neg hDne, msb_false_of_small hD, msb_false_of_small hm] at h1
    by_cases h0 : m = 0
    · apply h2
      subst h0
      apply BitVec.eq_of_toNat_eq
      rw [toNat_remsi' hm hD0 hD]
      simp
    · rw [if_neg h0] at h1
      exact h1 rfl
  unfold fdS
  rw [hc, select_zero]

/-- A positive divisor is not replaced. -/
theorem select_eq_zero_self {D : BitVec 32} (hD0 : 0 < D.toNat) :
    Scalar.select (IntOp.cmpi .eq D 0#32) 1#32 D = D := by
  have : IntOp.cmpi .eq D 0#32 = 0#1 := eq_zero_of_ne_one fun h => by
    rw [IntOp.cmpi_eq] at h; subst h; simp at hD0
  rw [this, select_zero]

/-- For a nonnegative entry and a positive divisor, the remainder keeps the truncating remainder, which is
    nonnegative like the divisor. -/
theorem rmS_of_nonneg {q D : BitVec 32} (hq : 2 * q.toNat < 2 ^ 32) (hD0 : 0 < D.toNat) (hD : 2 * D.toNat < 2 ^ 32) :
    rmS q D = IntOp.remsi .host q D := by
  have hr : 2 * (IntOp.remsi .host q D).toNat < 2 ^ 32 := by
    rw [toNat_remsi' hq hD0 hD]
    have := Nat.mod_lt q.toNat hD0
    omega
  have ha : ∀ c : BitVec 1, IntOp.andi (IntOp.cmpi .ne 0#1 0#1) c = 0#1 := by decide
  unfold rmS
  rw [select_eq_zero_self hD0, slt_zero_of_small hr, slt_zero_of_small hD, ha, select_zero]

/-- A nonnegative coordinate is not wrapped. -/
theorem wS_of_nonneg {x : BitVec 32} (n : BitVec 32) (hx : 2 * x.toNat < 2 ^ 32) : wS x n = x := by
  unfold wS
  rw [slt_zero_of_small hx, select_zero]

/-- The row coordinate of an entry below 2097152: ⌊m / 16384⌋. -/
theorem yS_toInt {m : BitVec 32} (hm : m.toNat < 2097152) :
    (wS (fdS m 16384#32) 128#32).toInt = ((m.toNat / 16384 : Nat) : Int) := by
  have hm' : 2 * m.toNat < 2 ^ 32 := by omega
  have hq : (IntOp.divsi .host m 16384#32).toNat = m.toNat / 16384 := toNat_divsi hm' (by decide) (by decide)
  have hqs : 2 * (IntOp.divsi .host m 16384#32).toNat < 2 ^ 32 := by rw [hq]; omega
  rw [fdS_of_nonneg hm' (by decide) (by decide), wS_of_nonneg _ hqs, toInt_of_small hqs, hq]

/-- The column coordinate of an entry below 2097152: ⌊m / 128⌋ mod 128. -/
theorem xS_toInt {m : BitVec 32} (hm : m.toNat < 2097152) :
    (wS (rmS (fdS m 128#32) 128#32) 128#32).toInt = ((m.toNat / 128 % 128 : Nat) : Int) := by
  have hm' : 2 * m.toNat < 2 ^ 32 := by omega
  have hq : (IntOp.divsi .host m 128#32).toNat = m.toNat / 128 := toNat_divsi hm' (by decide) (by decide)
  have hqs : 2 * (IntOp.divsi .host m 128#32).toNat < 2 ^ 32 := by rw [hq]; omega
  have hr : (IntOp.remsi .host (IntOp.divsi .host m 128#32) 128#32).toNat = m.toNat / 128 % 128 := by
    rw [toNat_remsi' hqs (by decide) (by decide), hq]; rfl
  have hrs : 2 * (IntOp.remsi .host (IntOp.divsi .host m 128#32) 128#32).toNat < 2 ^ 32 := by rw [hr]; omega
  rw [fdS_of_nonneg hm' (by decide) (by decide), rmS_of_nonneg hqs (by decide) (by decide), wS_of_nonneg _ hrs,
    toInt_of_small hrs, hr]

/-- A position coordinate, as a word, wrapped: itself. -/
theorem iS_toInt (k : Nat) (hk : k < 2097152) (n : BitVec 32) : (wS (BitVec.ofNat 32 k) n).toInt = (k : Int) := by
  have hk' : (BitVec.ofNat 32 k).toNat = k := by rw [BitVec.toNat_ofNat]; omega
  have hs : 2 * (BitVec.ofNat 32 k).toNat < 2 ^ 32 := by rw [hk']; omega
  rw [wS_of_nonneg _ hs, toInt_of_small hs, hk']

/-! ## The index array at an entry -/

/-- A one-wide slab read at (b, h, w, c, ·) is its array at (b, h, w, c). -/
theorem col_apply (x : IVec S32x64x64x128 32) (b : Fin 32) (h : Fin 64) (w : Fin 64) (c : Fin 128) (e : Fin 1) :
    col x (ix5 b h w c e) = x (ix4 b h w c) := by
  show x _ = x _
  congr 1
  funext a
  fin_cases a <;> rfl

/-! The concatenation along the last axis at last coordinate a: slab a (the a slabs before it have extent a in all,
    and the slab's own last coordinate is 0). -/

theorem refIdx_0 (mask : IVec S32x64x64x128 32) (b : Fin 32) (h : Fin 64) (w : Fin 64) (c : Fin 128) :
    refIdx mask (ix5 b h w c (0 : Fin 4)) = col bIdx (ix5 b h w c (0 : Fin 1)) := by
  unfold refIdx
  refine concatenate_apply_piece (t := S32x64x64x128x4) (4 : Fin 5) _ _ _ 0 ?_ S32x64x64x128x1 (col bIdx) ?_ rfl 0 ?_ _ ?_ ?_
  · simp
  · rfl
  · rfl
  · intro a ha
    fin_cases a <;> first | rfl | exact absurd rfl ha
  · rfl

theorem refIdx_1 (mask : IVec S32x64x64x128 32) (b : Fin 32) (h : Fin 64) (w : Fin 64) (c : Fin 128) :
    refIdx mask (ix5 b h w c (1 : Fin 4)) = col (yIdx mask) (ix5 b h w c (0 : Fin 1)) := by
  unfold refIdx
  refine concatenate_apply_piece (t := S32x64x64x128x4) (4 : Fin 5) _ _ _ 1 ?_ S32x64x64x128x1 (col (yIdx mask)) ?_ rfl 1 ?_ _ ?_ ?_
  · simp
  · rfl
  · rfl
  · intro a ha
    fin_cases a <;> first | rfl | exact absurd rfl ha
  · rfl

theorem refIdx_2 (mask : IVec S32x64x64x128 32) (b : Fin 32) (h : Fin 64) (w : Fin 64) (c : Fin 128) :
    refIdx mask (ix5 b h w c (2 : Fin 4)) = col (xIdx mask) (ix5 b h w c (0 : Fin 1)) := by
  unfold refIdx
  refine concatenate_apply_piece (t := S32x64x64x128x4) (4 : Fin 5) _ _ _ 2 ?_ S32x64x64x128x1 (col (xIdx mask)) ?_ rfl 2 ?_ _ ?_ ?_
  · simp
  · rfl
  · rfl
  · intro a ha
    fin_cases a <;> first | rfl | exact absurd rfl ha
  · rfl

theorem refIdx_3 (mask : IVec S32x64x64x128 32) (b : Fin 32) (h : Fin 64) (w : Fin 64) (c : Fin 128) :
    refIdx mask (ix5 b h w c (3 : Fin 4)) = col fIdx (ix5 b h w c (0 : Fin 1)) := by
  unfold refIdx
  refine concatenate_apply_piece (t := S32x64x64x128x4) (4 : Fin 5) _ _ _ 3 ?_ S32x64x64x128x1 (col fIdx) ?_ rfl 3 ?_ _ ?_ ?_
  · simp
  · rfl
  · rfl
  · intro a ha
    fin_cases a <;> first | rfl | exact absurd rfl ha
  · rfl

theorem refIdx_apply (mask : IVec S32x64x64x128 32) (b : Fin 32) (h : Fin 64) (w : Fin 64) (c : Fin 128)
    (hm0 : 0 ≤ (mask (ix4 b h w c)).toInt) (hm1 : (mask (ix4 b h w c)).toInt < 2097152) :
    (refIdx mask (ix5 b h w c (0 : Fin 4))).toInt = ((b.val : Nat) : Int)
    ∧ (refIdx mask (ix5 b h w c (1 : Fin 4))).toInt = (((mask (ix4 b h w c)).toNat / 16384 : Nat) : Int)
    ∧ (refIdx mask (ix5 b h w c (2 : Fin 4))).toInt = (((mask (ix4 b h w c)).toNat / 128 % 128 : Nat) : Int)
    ∧ (refIdx mask (ix5 b h w c (3 : Fin 4))).toInt = ((c.val : Nat) : Int) := by
  have hmN := toNat_lt_of_toInt hm0 hm1
  refine ⟨?_, ?_, ?_, ?_⟩
  · rw [refIdx_0, col_apply, bIdx_apply]
    exact iS_toInt b.val (by have := b.isLt; omega) _
  · rw [refIdx_1, col_apply, yIdx_apply]
    exact yS_toInt hmN
  · rw [refIdx_2, col_apply, xIdx_apply]
    exact xS_toInt hmN
  · rw [refIdx_3, col_apply, fIdx_apply]
    exact iS_toInt c.val (by have := c.isLt; omega) _

end Cert.ReferenceIdeal.Hand

end
-- ==== Proof.WordFacts.lean ====
/-
  Facts about 32-bit words used to read the kernel's flat target: clearing the seven low bits of a word m leaves
  ⌊m / 128⌋ · 128, and for 0 ≤ m < 2097152, b < 32 and c < 128 the sum of that, c and b · 2097152 does not wrap.
-/
import Mathlib.Data.BitVec
import Mathlib.Tactic.IntervalCases

namespace Cert.Unpool.Word

/-- Clearing the seven low bits of a word is shifting them out and back in. -/
theorem and_clear7 (m : BitVec 32) : m &&& 4294967168#32 = (m >>> 7) <<< 7 := by
  ext i hi
  interval_cases i <;> simp

/-- So the word with its seven low bits cleared is ⌊m / 128⌋ · 128. -/
theorem and_clear7_toNat (m : BitVec 32) : (m &&& 4294967168#32).toNat = m.toNat / 128 * 128 := by
  rw [and_clear7]
  simp only [BitVec.toNat_shiftLeft, BitVec.toNat_ushiftRight, Nat.shiftLeft_eq, Nat.shiftRight_eq_div_pow]
  have := m.isLt
  omega

/-- A word that reads non-negative and below 2097152 as a signed number reads the same unsigned. -/
theorem toNat_lt_of_toInt {m : BitVec 32} (hm0 : 0 ≤ m.toInt) (hm1 : m.toInt < 2097152) : m.toNat < 2097152 := by
  have h := BitVec.toInt_eq_toNat_cond m
  have := m.isLt
  split at h <;> omega

/-- The target word of an in-range entry at batch b and channel c: no addition wraps. -/
theorem target_toNat (m : BitVec 32) (b c : Nat) (hb : b < 32) (hc : c < 128) (hmn : m.toNat < 2097152) :
    ((m &&& 4294967168#32) + BitVec.ofNat 32 c + BitVec.ofNat 32 b * 2097152#32).toNat
      = b * 2097152 + m.toNat / 128 * 128 + c := by
  have h1 := and_clear7_toNat m
  have hc' : (BitVec.ofNat 32 c).toNat = c := by
    rw [BitVec.toNat_ofNat]; exact Nat.mod_eq_of_lt (by omega)
  have hb' : (BitVec.ofNat 32 b).toNat = b := by
    rw [BitVec.toNat_ofNat]; exact Nat.mod_eq_of_lt (by omega)
  have hk : (2097152#32 : BitVec 32).toNat = 2097152 := by decide
  have e1 : m.toNat / 128 * 128 ≤ m.toNat := Nat.div_mul_le_self _ _
  have hbm : b * 2097152 < 67108864 := by omega
  rw [BitVec.toNat_add, BitVec.toNat_add, BitVec.toNat_mul, h1, hc', hb', hk]
  rw [Nat.mod_eq_of_lt (a := m.toNat / 128 * 128 + c) (by omega), Nat.mod_eq_of_lt (a := b * 2097152) (by omega),
    Nat.mod_eq_of_lt (by omega)]
  omega

/-- A word below 2³¹ reads the same signed as unsigned. -/
theorem toInt_of_lt (v : BitVec 32) (hv : v.toNat < 2147483648) : v.toInt = (v.toNat : Int) := by
  have h := BitVec.toInt_eq_toNat_cond v
  split at h <;> omega

end Cert.Unpool.Word
-- ==== Proof.KernelIndex.lean ====
/-
  The kernel's flat target read at an entry, for a mask entry m with 0 ≤ m < 2097152: it is
  b·2097152 + ⌊m / 128⌋·128 + c, never wrapped.
-/
import proofs.«429750_j88510686035968_3_alg».proof.Proof.Terms
import proofs.«429750_j88510686035968_3_alg».proof.Proof.WordFacts
import Idealize.ShloMosaic.Lib.ValueIdx
import Idealize.ShloMosaic.Lib.Pipeline.Value
import Idealize.ShloMosaic.Lib.Affine

noncomputable section

namespace Cert.KernelIdeal.Hand

open Cert.KernelIdeal Cert.KernelIdeal.Gen Idealize.ShloMosaic Idealize.ShloMosaic.ValueIdx

/-! ## The kernel's output at an in-range entry -/

/-- Where the mask's entry is in range, the pallas_call leaves the flat target b·2097152 + (m with its seven low
    bits cleared) + c, as a word. -/
theorem regionOut_of_range (mask : IVec S32x64x64x128 32) (b : Fin 32) (h : Fin 64) (w : Fin 64) (c : Fin 128)
    (hm0 : 0 ≤ (mask (ix4 b h w c)).toInt) (hm1 : (mask (ix4 b h w c)).toInt < 2097152) :
    regionOut mask (ix4 b h w c)
      = (mask (ix4 b h w c) &&& 4294967168#32) + BitVec.ofNat 32 c.val + BitVec.ofNat 32 b.val * 2097152#32 := by
  have hc : IntOp.andi (IntOp.cmpi .sge (mask (ix4 b h w c)) 0#32) (IntOp.cmpi .slt (mask (ix4 b h w c)) 2097152#32) = 1#1 :=
    IntOp.andi_eq_one.mpr
      ⟨IntOp.cmpi_sge.mpr (by rw [show (0#32 : BitVec 32).toInt = 0 from by decide]; exact hm0),
       IntOp.cmpi_slt.mpr (by rw [show (2097152#32 : BitVec 32).toInt = 2097152 from by decide]; exact hm1)⟩
  show Scalar.select
      (IntOp.andi (IntOp.cmpi .sge (mask (ix4 b h w c)) 0#32) (IntOp.cmpi .slt (mask (ix4 b h w c)) 2097152#32)) _ _ = _
  rw [hc]
  exact select_one _ _

/-! ## The host lines read at an index -/

/-- The one-column broadcast of a flat array read at (q, ·) is the array at q. -/
theorem bcastCol_apply {α : Type} (x : S16777216.Idx → α) (q : Fin 16777216) (e : Fin 1) :
    broadcastInDim S16777216x1 ![0] bcast_S16777216_S16777216x1_0 x (ix2 q e) = x (ix1 q) := by
  show x _ = x _
  congr 1
  funext a
  fin_cases a
  rfl

/-- The wrap of a flat array by the length of the flat result, read at an index: a select on the entry's sign. -/
theorem wrapFlat_apply (r : IVec S16777216 32) (j : S16777216.Idx) :
    select (cmpi .slt r (broadcastInDim S16777216 ![] bcast_S_S16777216 (constantI S_ 32 0#32)))
      (addi r (broadcastInDim S16777216 ![] bcast_S_S16777216 (constantI S_ 32 67108864#32))) r j
      = Scalar.select (IntOp.cmpi .slt (r j) 0#32) (IntOp.addi (r j) 67108864#32) (r j) := rfl

/-- The flat target at (q, ·): the flattened array's entry at q, wrapped where negative. -/
theorem flatIdx_at (A : IVec S32x64x64x128 32) (q : Fin 16777216) (e : Fin 1) :
    flatIdx A (ix2 q e)
      = Scalar.select (IntOp.cmpi .slt (shapeCast S16777216 A shapeCasts_S32x64x64x128_S16777216 (ix1 q)) 0#32)
          (IntOp.addi (shapeCast S16777216 A shapeCasts_S32x64x64x128_S16777216 (ix1 q)) 67108864#32)
          (shapeCast S16777216 A shapeCasts_S32x64x64x128_S16777216 (ix1 q)) := by
  dsimp only [flatIdx]
  rw [bcastCol_apply, wrapFlat_apply]

/-- Position q = ((b·64 + h)·64 + w)·128 + c of the flattened array is its entry (b, h, w, c): the two have the
    same row-major position. -/
theorem flat_at (A : IVec S32x64x64x128 32) (b : Fin 32) (h : Fin 64) (w : Fin 64) (c : Fin 128)
    (q : Fin 16777216) (hq : q.val = ((b.val * 64 + h.val) * 64 + w.val) * 128 + c.val) :
    shapeCast S16777216 A shapeCasts_S32x64x64x128_S16777216 (ix1 q) = A (ix4 b h w c) := by
  refine shapeCast_apply _ _ _ _ ?_
  rw [Shape.rowMajor_val_four, Shape.rowMajor_val_one]
  show ((b.val * 64 + h.val) * 64 + w.val) * 128 + c.val = q.val
  omega

/-! ## The flat target at an entry -/

theorem flatIdx_apply (mask : IVec S32x64x64x128 32) (b : Fin 32) (h : Fin 64) (w : Fin 64) (c : Fin 128)
    (hm0 : 0 ≤ (mask (ix4 b h w c)).toInt) (hm1 : (mask (ix4 b h w c)).toInt < 2097152)
    (q : Fin 16777216) (hq : q.val = ((b.val * 64 + h.val) * 64 + w.val) * 128 + c.val) :
    (flatIdx (regionOut mask) (ix2 q (0 : Fin 1))).toInt
      = ((b.val * 2097152 + (mask (ix4 b h w c)).toNat / 128 * 128 + c.val : Nat) : Int) := by
  have hmn := Cert.Unpool.Word.toNat_lt_of_toInt hm0 hm1
  have hn := Cert.Unpool.Word.target_toNat (mask (ix4 b h w c)) b.val c.val b.isLt c.isLt hmn
  -- the flat target at (q, 0) is the output's entry at (b, h, w, c), wrapped where negative
  rw [flatIdx_at, flat_at (regionOut mask) b h w c q hq, regionOut_of_range mask b h w c hm0 hm1]
  generalize (mask (ix4 b h w c) &&& 4294967168#32) + BitVec.ofNat 32 c.val + BitVec.ofNat 32 b.val * 2097152#32 = v
    at hn ⊢
  -- the entry is below 2²⁶, so it reads nonnegative and is not wrapped
  have hb := b.isLt
  have hc := c.isLt
  have hs : v.toNat < 2147483648 := by rw [hn]; omega
  have hneg : IntOp.cmpi .slt v 0#32 = 0#1 := by
    refine eq_zero_of_ne_one fun hh => ?_
    have := IntOp.cmpi_slt.mp hh
    rw [Cert.Unpool.Word.toInt_of_lt v hs, show (0#32 : BitVec 32).toInt = 0 from by decide] at this
    omega
  rw [hneg, select_zero, Cert.Unpool.Word.toInt_of_lt v hs, hn]

end Cert.KernelIdeal.Hand

end
-- ==== Proof.LibPointScatter.lean ====
/-
  General facts about a scatter-add read at the exact instance (floats as extended reals), for any shapes and any
  dimension numbers:
  * `resultIdx?_eq_some_iff`: an update lands at operand index p exactly when, on every operand axis, its start
    (the index array's entry read signed, unclamped) plus its window coordinate is p's coordinate — being inside
    the operand is then automatic, so the "dropped when outside" clause disappears;
  * `scatterAdd_apply`: `Host.scatterAdd` at a result entry is the operand's entry plus the sum of the updates
    that land there;
  * `sum_filter_equiv`: two sums over filtered index sets agree when a bijection of the index types carries one
    predicate to the other and one summand to the other — the step that joins a scatter over flattened updates to
    the scatter over the unflattened ones.
  All three are stated over variables (shapes, index types), so instantiating them never makes Lean evaluate over
  a large literal extent.
-/
import Idealize.ShloMosaic.PureOps.Ideal

noncomputable section

open Idealize.ShloMosaic

namespace Cert.Lib.PointScatter

/-- An update lands at operand index `p` exactly when, on every operand axis, its start plus its window
    coordinate is `p`'s coordinate: being inside the operand is then automatic. -/
theorem resultIdx?_eq_some_iff {s si u : Shape} (d : ScatterDims s si u) {w : Nat} (j : u.Idx) (idx : IVec si w) (p : s.Idx) :
    d.resultIdx? j idx = some p ↔ ∀ a, d.start j idx a + (d.window j a : Int) = ((p a).val : Int) := by
  unfold ScatterDims.resultIdx?
  constructor
  · intro h
    by_cases hh : ∀ a, 0 ≤ d.start j idx a + d.window j a ∧ d.start j idx a + d.window j a < s.size a
    · rw [dif_pos hh] at h
      intro a
      have h1 := congrArg Fin.val (congrFun (Option.some.inj h) a)
      have h2 := hh a
      simp only at h1
      omega
    · rw [dif_neg hh] at h
      exact absurd h (by simp)
  · intro h
    have hh : ∀ a, 0 ≤ d.start j idx a + d.window j a ∧ d.start j idx a + d.window j a < s.size a := fun a => by
      have := h a; have := (p a).isLt; omega
    rw [dif_pos hh]
    congr 1
    funext a
    apply Fin.ext
    have := h a
    simp only
    omega

/-- The exact scatter-add at a result entry: the operand's entry plus the sum of the updates that land there. -/
theorem scatterAdd_apply {s si su : Shape} (d : ScatterDims s si su) {w : Nat} (x : FVec Ideal s .f32) (idx : IVec si w)
    (upd : FVec Ideal su .f32) (i : s.Idx) [DecidablePred fun j : su.Idx => d.resultIdx? j idx = some i] :
    Host.scatterAdd d x idx upd i = x i + ∑ j ∈ Finset.univ.filter (fun j => d.resultIdx? j idx = some i), upd j := by
  show Ideal.hostScatterAdd d x idx upd i = _
  unfold Ideal.hostScatterAdd
  congr

/-- Two sums over filtered index sets agree when a bijection of the index types carries one predicate to the
    other and one summand to the other. -/
theorem sum_filter_equiv {ι κ M : Type} [Fintype ι] [Fintype κ] [AddCommMonoid M] (e : ι ≃ κ) (P : ι → Prop) (Q : κ → Prop)
    [DecidablePred P] [DecidablePred Q] (f : ι → M) (g : κ → M) (hPQ : ∀ j, P j ↔ Q (e j)) (hfg : ∀ j, f j = g (e j)) :
    ∑ j ∈ Finset.univ.filter P, f j = ∑ k ∈ Finset.univ.filter Q, g k :=
  Finset.sum_equiv e (fun j => by simp only [Finset.mem_filter, Finset.mem_univ, true_and]; exact hPQ j) (fun j _ => hfg j)

end Cert.Lib.PointScatter

end
-- ==== Proof.Scatter.lean ====
/-
  The two scatter-adds are one function of the arguments.

  At the exact instance a scatter-add is, at each result entry, the operand's entry plus the sum of the updates
  that land there. The kernel's program scatters the FLATTENED updates by flat targets into a flat zero vector and
  reads the result as [32, 128, 128, 128]; the reference scatters the updates by (b, y, x, c) into a zero array
  of that shape. Flattening is a bijection between the two families of updates, and for a mask entry
  0 ≤ m < 2097152 the flat target b·2097152 + ⌊m/128⌋·128 + c is the row-major position of
  (b, ⌊m/16384⌋, ⌊m/128⌋ mod 128, c): an update lands at the flat position of i exactly when its coordinates
  are i's. So the two sums range over corresponding sets and agree term by term; only commutativity of the sum
  is used, no finiteness.
-/
import proofs.«429750_j88510686035968_3_alg».proof.Proof.Terms
import proofs.«429750_j88510686035968_3_alg».proof.Proof.RefIndex
import proofs.«429750_j88510686035968_3_alg».proof.Proof.KernelIndex
import proofs.«429750_j88510686035968_3_alg».proof.Proof.LibPointScatter
import Idealize.ShloMosaic.PureOps.Ideal
import Idealize.ShloMosaic.Lib.ValueIdx
import Idealize.ShloMosaic.Lib.Pipeline.Value

noncomputable section

open Idealize.ShloMosaic Idealize.ShloMosaic.ValueIdx

namespace Cert.Unpool

open Cert.Lib.PointScatter

section K
open Cert.KernelIdeal Cert.KernelIdeal.Gen

/-- The kernel program's scatter has one operand axis and no window: update q's start plus window coordinate on it
    is entry (q, 0) of the index array, read signed. -/
theorem startK (idx : IVec S16777216x1 32) (q : Fin 16777216) (a : Fin 1) :
    scatter_S67108864_S16777216x1_S16777216_n_0_0_1.start (ix1 q) idx a + (scatter_S67108864_S16777216x1_S16777216_n_0_0_1.window (ix1 q) a : Int)
      = (idx (ix2 q (0 : Fin 1))).toInt := by
  have ha : a = 0 := Subsingleton.elim _ _
  subst ha
  have hmem : (0 : Fin S67108864.rank) ∈ scatter_S67108864_S16777216x1_S16777216_n_0_0_1.scatterDimsToOperandDims := by decide
  have hw : scatter_S67108864_S16777216x1_S16777216_n_0_0_1.window (ix1 q) 0 = 0 := by
    unfold ScatterDims.window; rw [dif_neg]; decide
  rw [hw]
  unfold ScatterDims.start
  rw [dif_pos hmem]
  simp only [Nat.cast_zero, add_zero]
  congr 2
  funext b
  match b with
  | ⟨0, _⟩ => rfl
  | ⟨1, _⟩ => rfl
end K

section R
open Cert.ReferenceIdeal Cert.ReferenceIdeal.Gen

/-- The reference's scatter has four operand axes, all inserted: update (b, h, w, c)'s start plus window coordinate on
    axis a is entry (b, h, w, c, a) of the index array, read signed. -/
theorem startR (idx : IVec S32x64x64x128x4 32) (b : Fin 32) (h : Fin 64) (w : Fin 64) (c : Fin 128) (a : Fin 4) :
    scatter_S32x128x128x128_S32x64x64x128x4_S32x64x64x128_n_0123_0123_4.start (ix4 b h w c) idx a
      + (scatter_S32x128x128x128_S32x64x64x128x4_S32x64x64x128_n_0123_0123_4.window (ix4 b h w c) a : Int)
      = (idx (ix5 b h w c a)).toInt := by
  have hmemAll : ∀ a : Fin S32x128x128x128.rank, a ∈ scatter_S32x128x128x128_S32x64x64x128x4_S32x64x64x128_n_0123_0123_4.scatterDimsToOperandDims := by
    decide
  have hkeptAll : ∀ a : Fin S32x128x128x128.rank, a ∉ scatter_S32x128x128x128_S32x64x64x128x4_S32x64x64x128_n_0123_0123_4.sKept := by
    decide
  have hw : scatter_S32x128x128x128_S32x64x64x128x4_S32x64x64x128_n_0123_0123_4.window (ix4 b h w c) a = 0 := by
    unfold ScatterDims.window; rw [dif_neg (hkeptAll a)]
  rw [hw]
  unfold ScatterDims.start
  rw [dif_pos (hmemAll a)]
  simp only [Nat.cast_zero, add_zero]
  congr 2
  funext k
  match a, k with
  | ⟨0, _⟩, ⟨0, _⟩ => rfl
  | ⟨0, _⟩, ⟨1, _⟩ => rfl
  | ⟨0, _⟩, ⟨2, _⟩ => rfl
  | ⟨0, _⟩, ⟨3, _⟩ => rfl
  | ⟨0, _⟩, ⟨4, _⟩ => rfl
  | ⟨1, _⟩, ⟨0, _⟩ => rfl
  | ⟨1, _⟩, ⟨1, _⟩ => rfl
  | ⟨1, _⟩, ⟨2, _⟩ => rfl
  | ⟨1, _⟩, ⟨3, _⟩ => rfl
  | ⟨1, _⟩, ⟨4, _⟩ => rfl
  | ⟨2, _⟩, ⟨0, _⟩ => rfl
  | ⟨2, _⟩, ⟨1, _⟩ => rfl
  | ⟨2, _⟩, ⟨2, _⟩ => rfl
  | ⟨2, _⟩, ⟨3, _⟩ => rfl
  | ⟨2, _⟩, ⟨4, _⟩ => rfl
  | ⟨3, _⟩, ⟨0, _⟩ => rfl
  | ⟨3, _⟩, ⟨1, _⟩ => rfl
  | ⟨3, _⟩, ⟨2, _⟩ => rfl
  | ⟨3, _⟩, ⟨3, _⟩ => rfl
  | ⟨3, _⟩, ⟨4, _⟩ => rfl
end R

section Bridge
open Cert.KernelIdeal.Hand Cert.ReferenceIdeal.Hand

/-- Flattening [32, 64, 64, 128] to [16777216]. -/
abbrev eUpd : Cert.KernelIdeal.S16777216.Idx ≃ Cert.KernelIdeal.S32x64x64x128.Idx :=
  Shape.reshapeEquiv Cert.KernelIdeal.Gen.shapeCasts_S32x64x64x128_S16777216
/-- Reading [67108864] as [32, 128, 128, 128]. -/
abbrev eOut : Cert.KernelIdeal.S32x128x128x128.Idx ≃ Cert.KernelIdeal.S67108864.Idx :=
  Shape.reshapeEquiv Cert.KernelIdeal.Gen.shapeCasts_S67108864_S32x128x128x128

/-- The flat position of update (b, h, w, c). -/
theorem eUpd_symm_val (b : Fin 32) (h : Fin 64) (w : Fin 64) (c : Fin 128) (q : Fin 16777216)
    (hq : eUpd.symm (ix4 b h w c) = ix1 q) : q.val = ((b.val * 64 + h.val) * 64 + w.val) * 128 + c.val := by
  have h1 : eUpd (ix1 q) = ix4 b h w c := by rw [← hq]; exact Equiv.apply_symm_apply _ _
  have h2 := Shape.rowMajor_reshapeEquiv Cert.KernelIdeal.Gen.shapeCasts_S32x64x64x128_S16777216 (ix1 q)
  rw [show Shape.reshapeEquiv Cert.KernelIdeal.Gen.shapeCasts_S32x64x64x128_S16777216 (ix1 q) = ix4 b h w c from h1,
    Shape.rowMajor_val_four, Shape.rowMajor_val_one] at h2
  exact h2.symm

/-- The flat position of result entry (i0, i1, i2, i3). -/
theorem eOut_val (i0 : Fin 32) (i1 : Fin 128) (i2 : Fin 128) (i3 : Fin 128) :
    ((eOut (ix4 i0 i1 i2 i3)) 0).val = ((i0.val * 128 + i1.val) * 128 + i2.val) * 128 + i3.val := by
  have h3 := Shape.rowMajor_reshapeEquiv Cert.KernelIdeal.Gen.shapeCasts_S67108864_S32x128x128x128 (ix4 i0 i1 i2 i3)
  rw [Shape.rowMajor_val_one, Shape.rowMajor_val_four] at h3
  exact h3

end Bridge

section Lands
open Cert.KernelIdeal.Hand Cert.ReferenceIdeal.Hand

/-- The row-major position of (b, y, x, c) in [32, 128, 128, 128] against the kernel's flat target. -/
theorem target_iff (m b c i0 i1 i2 i3 : Nat) (hm : m < 2097152) (hb : b < 32) (hc : c < 128)
    (h0 : i0 < 32) (h1 : i1 < 128) (h2 : i2 < 128) (h3 : i3 < 128) :
    (b = i0 ∧ m / 16384 = i1 ∧ m / 128 % 128 = i2 ∧ c = i3)
      ↔ b * 2097152 + m / 128 * 128 + c = ((i0 * 128 + i1) * 128 + i2) * 128 + i3 := by
  omega

/-- For a mask entry in range, update (b, h, w, c) lands at result entry i in the reference exactly when its
    flattened copy lands at i's flat position in the kernel's program. -/
theorem lands_iff (mask : IVec Cert.KernelIdeal.S32x64x64x128 32)
    (b : Fin 32) (h : Fin 64) (w : Fin 64) (c : Fin 128)
    (hm0 : 0 ≤ (mask (ix4 b h w c)).toInt) (hm1 : (mask (ix4 b h w c)).toInt < 2097152)
    (i0 : Fin 32) (i1 : Fin 128) (i2 : Fin 128) (i3 : Fin 128) :
    Cert.ReferenceIdeal.scatter_S32x128x128x128_S32x64x64x128x4_S32x64x64x128_n_0123_0123_4.resultIdx? (ix4 b h w c) (refIdx mask)
        = some (ix4 i0 i1 i2 i3)
      ↔ Cert.KernelIdeal.scatter_S67108864_S16777216x1_S16777216_n_0_0_1.resultIdx? (eUpd.symm (ix4 b h w c)) (flatIdx (regionOut mask))
        = some (eOut (ix4 i0 i1 i2 i3)) := by
  obtain ⟨q, hq⟩ : ∃ q : Fin 16777216, eUpd.symm (ix4 b h w c) = ix1 q := ⟨eUpd.symm (ix4 b h w c) 0, eq_ix1 _⟩
  have hqv := eUpd_symm_val b h w c q hq
  have hR := refIdx_apply mask b h w c hm0 hm1
  have hK := flatIdx_apply mask b h w c hm0 hm1 q hqv
  have hmn : (mask (ix4 b h w c)).toNat < 2097152 := Cert.ReferenceIdeal.Hand.toNat_lt_of_toInt hm0 hm1
  have key := target_iff (mask (ix4 b h w c)).toNat b.val c.val i0.val i1.val i2.val i3.val hmn b.isLt c.isLt
    i0.isLt i1.isLt i2.isLt i3.isLt
  have hp := eOut_val i0 i1 i2 i3
  rw [hq, resultIdx?_eq_some_iff, resultIdx?_eq_some_iff]
  constructor
  · intro H a
    have ha : a = 0 := Subsingleton.elim _ _
    subst ha
    have H0 := H 0
    have H1 := H 1
    have H2 := H 2
    have H3 := H 3
    rw [startR] at H0 H1 H2 H3
    rw [hR.1] at H0
    rw [hR.2.1] at H1
    rw [hR.2.2.1] at H2
    rw [hR.2.2.2] at H3
    have e0 : b.val = i0.val := by exact_mod_cast H0
    have e1 : (mask (ix4 b h w c)).toNat / 16384 = i1.val := by exact_mod_cast H1
    have e2 : (mask (ix4 b h w c)).toNat / 128 % 128 = i2.val := by exact_mod_cast H2
    have e3 : c.val = i3.val := by exact_mod_cast H3
    have := key.mp ⟨e0, e1, e2, e3⟩
    rw [startK, hK, hp]
    exact_mod_cast this
  · intro H a
    have H0 := H 0
    rw [startK, hK, hp] at H0
    have hk : b.val * 2097152 + (mask (ix4 b h w c)).toNat / 128 * 128 + c.val
        = ((i0.val * 128 + i1.val) * 128 + i2.val) * 128 + i3.val := by exact_mod_cast H0
    obtain ⟨e0, e1, e2, e3⟩ := key.mpr hk
    rw [startR]
    match a with
    | ⟨0, _⟩ => exact hR.1.trans (show ((b.val : Nat) : Int) = ((i0.val : Nat) : Int) by exact_mod_cast e0)
    | ⟨1, _⟩ =>
      exact hR.2.1.trans (show (((mask (ix4 b h w c)).toNat / 16384 : Nat) : Int) = ((i1.val : Nat) : Int) by exact_mod_cast e1)
    | ⟨2, _⟩ =>
      exact hR.2.2.1.trans (show (((mask (ix4 b h w c)).toNat / 128 % 128 : Nat) : Int) = ((i2.val : Nat) : Int) by exact_mod_cast e2)
    | ⟨3, _⟩ => exact hR.2.2.2.trans (show ((c.val : Nat) : Int) = ((i3.val : Nat) : Int) by exact_mod_cast e3)

/-- For a mask whose entries are flat positions inside one batch element's output, the reference's result and
    the kernel program's are the same array, at the exact instance. -/
theorem result_eq (mask : IVec Cert.KernelIdeal.S32x64x64x128 32) (upd : FVec Ideal Cert.KernelIdeal.S32x64x64x128 .f32)
    (hm : ∀ j : Cert.KernelIdeal.S32x64x64x128.Idx, 0 ≤ (mask j).toInt ∧ (mask j).toInt < 2097152) :
    refResult (F := Ideal) mask upd = tailResult (F := Ideal) (regionOut mask) upd := by
  funext i
  obtain ⟨i0, i1, i2, i3, rfl⟩ : ∃ (i0 : Fin 32) (i1 : Fin 128) (i2 : Fin 128) (i3 : Fin 128), i = ix4 i0 i1 i2 i3 :=
    ⟨i 0, i 1, i 2, i 3, eq_ix4 i⟩
  unfold refResult tailResult shapeCast
  rw [scatterAdd_apply, scatterAdd_apply]
  refine congr (congrArg HAdd.hAdd ?_) ?_
  · rfl
  · refine sum_filter_equiv eUpd.symm _ _ _ _ (fun j => ?_) (fun j => ?_)
    · obtain ⟨b, h, w, c, rfl⟩ : ∃ (b : Fin 32) (h : Fin 64) (w : Fin 64) (c : Fin 128), j = ix4 b h w c :=
        ⟨j 0, j 1, j 2, j 3, eq_ix4 j⟩
      exact lands_iff mask b h w c (hm _).1 (hm _).2 i0 i1 i2 i3
    · exact (congrArg upd (Equiv.apply_symm_apply eUpd j)).symm

end Lands

end Cert.Unpool

end
-- ==== Proof.lean ====
/-
  MaxUnpooling2D as a scatter-add: the kernel's program against the jnp reference, over the extended reals.

  Both programs add every update u[b, h, w, c] into a zero [32, 128, 128, 128] array at a position decoded from the
  mask entry m = mask[b, h, w, c], which the precondition keeps in 0 ≤ m < 2097152 = 128·128·128 (a flat position
  inside one batch element's output). The reference decodes y = ⌊m / 16384⌋ and x = ⌊m / 128⌋ mod 128 and scatters
  at (b, y, x, c). The kernel's pallas_call turns m into the flat target b·2097152 + ⌊m/128⌋·128 + c (it clears
  m's seven low bits and adds the channel and batch offsets), and the host lines after it scatter the flattened
  updates into a flat zero vector that is then read as [32, 128, 128, 128]. Since
  ⌊m/128⌋ = ⌊m/16384⌋·128 + ⌊m/128⌋ mod 128, the flat target is the row-major position of (b, y, x, c), so at each
  result entry the two programs sum the same updates (Proof/Scatter.lean); a sum over the extended reals does not
  depend on its order, so finiteness of the updates is never used.
  The frames: the two kernel programs' by the frame certificate of their one pipelined region (the output block of
  grid point t is a function of the mask's block t and of t itself); the reference's by its run, read back
  operation by operation (Proof/RefRun.lean). The ideal pass rewrote nothing, so `preserves` is `True`.
-/
import proofs.«429750_j88510686035968_3_alg».proof.Defs
import proofs.«429750_j88510686035968_3_alg».proof.Proof.Gen.Kernel
import proofs.«429750_j88510686035968_3_alg».proof.Proof.Gen.KernelIdeal
import proofs.«429750_j88510686035968_3_alg».proof.Proof.Gen.ReferenceIdeal
import proofs.«429750_j88510686035968_3_alg».proof.Proof.Gen.Pre_finite_inputs
import proofs.«429750_j88510686035968_3_alg».proof.Proof.FrameKernel
import proofs.«429750_j88510686035968_3_alg».proof.Proof.FrameKernelIdeal
import proofs.«429750_j88510686035968_3_alg».proof.Proof.KernelRun
import proofs.«429750_j88510686035968_3_alg».proof.Proof.RefRun
import proofs.«429750_j88510686035968_3_alg».proof.Proof.PreDecode
import proofs.«429750_j88510686035968_3_alg».proof.Proof.Scatter
import Idealize.ShloMosaic.Adequacy
import Idealize.ShloMosaic.Init

noncomputable section

namespace Cert.Proof

open Idealize.ShloMosaic Idealize.ShloMosaic.TcCoe Idealize.SL.Sem

/-- The kernel's program as printed runs and keeps its arguments: its region's frame certificate. -/
theorem frame_k : Cert.frame_Kernel := fun m ρ _ => Cert.Kernel.GenP.frame m ρ

/-- The same for its idealization. -/
theorem frame_ki : Cert.frame_KernelIdeal := fun m ρ _ => Cert.KernelIdeal.GenP.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Hand.run (F := Ideal) m ρ)

/-- The ideal pass rewrote no operation. -/
theorem preserves : Cert.preserves_Kernel_KernelIdeal := trivial

/-- From memories agreeing on the arguments both programs end with the updates added at the decoded positions:
    the kernel's program at the flat targets, the reference at (b, y, x, c), one array for a mask in range. -/
theorem algebraic : Cert.algebraic_KernelIdeal_ReferenceIdeal := by
  intro m ρ m' ρ' hpre hagree
  refine ⟨_, Cert.KernelIdeal.Hand.run (F := Ideal) m ρ, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2]
  exact Cert.Unpool.result_eq _ _ (fun j => Cert.Unpool.mask_range _ _ (hpre c) j)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
